-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x320000 : Shape := ⟨2, ![2, 320000]⟩
abbrev S320000 : Shape := ⟨1, ![320000]⟩
abbrev S256x513 : Shape := ⟨2, ![256, 513]⟩
abbrev S256 : Shape := ⟨1, ![256]⟩
abbrev S256x256 : Shape := ⟨2, ![256, 256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S320000 : S_.BroadcastsInDim S320000 (![] : Fin 0 → Fin S320000.rank)
  reducesTo_S320000_S_d0 : S320000.ReducesTo [0] S_
  bcast_S_S256x513 : S_.BroadcastsInDim S256x513 (![] : Fin 0 → Fin S256x513.rank)
  reducesTo_S256x513_S_d0_1 : S256x513.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S2x320000 : S_.BroadcastsInDim S2x320000 (![] : Fin 0 → Fin S2x320000.rank)
  reducesTo_S2x320000_S_d0_1 : S2x320000.ReducesTo [0, 1] S_

variable [Facts]

def fn_part2 {F : FTy → Type} [FloatOps F] (main_v28 : IVec S_ 1) (main_v33 : IVec S2x320000 1) : IVec S_ 1 :=
  let main_c_12 : IVec S_ 1 := constantI S_ 1 1#1
  let main_v34 : IVec S_ 1 := (fun x v => Host.reduce IntOp.andi x v reducesTo_S2x320000_S_d0_1 h_S_) main_v33 main_c_12
  let main_v35 : IVec S_ 1 := andi main_v28 main_v34
  main_v35

def fn_part1 {F : FTy → Type} [FloatOps F] (main_arg1 : IVec S2x320000 32) (main_arg5 : FVec F S256x256 .f32) (main_arg6 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_c_10 : IVec S_ 32 := constantI S_ 32 0#32
  let main_v29 : IVec S2x320000 32 := broadcastInDim S2x320000 ![] bcast_S_S2x320000 main_c_10
  let main_v30 : IVec S2x320000 1 := cmpi .sge main_arg1 main_v29
  let main_c_11 : IVec S_ 32 := constantI S_ 32 10000#32
  let main_v31 : IVec S2x320000 32 := broadcastInDim S2x320000 ![] bcast_S_S2x320000 main_c_11
  let main_v32 : IVec S2x320000 1 := cmpi .slt main_arg1 main_v31
  let main_v33 : IVec S2x320000 1 := andi main_v30 main_v32
  fn_part2 (F := F) main_v28 main_v33

def fn {F : FTy → Type} [FloatOps F] (main_arg0 : FVec F S10000x256 .f32) (main_arg1 : IVec S2x320000 32) (main_arg2 : FVec F S320000 .f32) (main_arg3 : FVec F S256x513 .f32) (main_arg4 : FVec F S256 .f32) (main_arg5 : FVec F S256x256 .f32) (main_arg6 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S320000 .f32 := Host.absf main_arg2
  let main_cst_0 : FVec F S_ .f32 := constant S_ .f32 0x7F800000#32
  let main_v5 : FVec F S320000 .f32 := broadcastInDim S320000 ![] bcast_S_S320000 main_cst_0
  let main_v6 : IVec S320000 1 := cmpf .olt main_v4 main_v5
  let main_c_1 : IVec S_ 1 := constantI S_ 1 1#1
  let main_v7 : IVec S_ 1 := (fun x v => Host.reduce IntOp.andi x v reducesTo_S320000_S_d0 h_S_) main_v6 main_c_1
  let main_v8 : IVec S_ 1 := andi main_v3 main_v7
  let main_v9 : FVec F S256x513 .f32 := Host.absf main_arg3
  let main_cst_2 : FVec F S_ .f32 := constant S_ .f32 0x7F800000#32
  let main_v10 : FVec F S256x513 .f32 := broadcastInDim S256x513 ![] bcast_S_S256x513 main_cst_2
  let main_v11 : IVec S256x513 1 := cmpf .olt main_v9 main_v10
  let main_c_3 : IVec S_ 1 := constantI S_ 1 1#1
  let main_v12 : IVec S_ 1 := (fun x v => Host.reduce IntOp.andi x v reducesTo_S256x513_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg5 main_arg6 main_v13 main_v16
-- ==== Kernel.lean ====
abbrev S10000x256 : Shape := ⟨2, ![10000, 256]⟩
abbrev S2x320000 : Shape := ⟨2, ![2, 320000]⟩
abbrev S320000 : Shape := ⟨1, ![320000]⟩
abbrev S256x513 : Shape := ⟨2, ![256, 513]⟩
abbrev S256 : Shape := ⟨1, ![256]⟩
abbrev S256x256 : Shape := ⟨2, ![256, 256]⟩
abbrev S1x320000 : Shape := ⟨2, ![1, 320000]⟩
abbrev S_ : Shape := ⟨0, ![]⟩
abbrev S513x256 : Shape := ⟨2, ![513, 256]⟩
abbrev S1x256 : Shape := ⟨2, ![1, 256]⟩
abbrev S320000x1 : Shape := ⟨2, ![320000, 1]⟩
abbrev S320000x256 : Shape := ⟨2, ![320000, 256]⟩
abbrev S6400x256 : Shape := ⟨2, ![6400, 256]⟩

abbrev nBuf : Space → Nat
  | .hbm => 51
  | .vmem => 6
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S320000, .f32⟩
  | .hbm, ⟨3, _⟩ => ⟨S256x513, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S1x320000, .i32⟩
  | .hbm, ⟨8, _⟩ => ⟨S320000, .i32⟩
  | .hbm, ⟨9, _⟩ => ⟨S1x320000, .i32⟩
  | .hbm, ⟨10, _⟩ => ⟨S320000, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S320000, .i32⟩
  | .hbm, ⟨15, _⟩ => ⟨S320000, .i32⟩
  | .hbm, ⟨16, _⟩ => ⟨S_, .i32⟩
  | .hbm, ⟨17, _⟩ => ⟨S320000, .i32⟩
  | .hbm, ⟨18, _⟩ => ⟨S320000, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S320000, .i32⟩
  | .hbm, ⟨23, _⟩ => ⟨S320000, .i32⟩
  | .hbm, ⟨24, _⟩ => ⟨S_, .i32⟩
  | .hbm, ⟨25, _⟩ => ⟨S320000, .i32⟩
  | .hbm, ⟨26, _⟩ => ⟨S320000, .i32⟩
  | .hbm, ⟨27, _⟩ => ⟨S513x256, .f32⟩
  | .hbm, ⟨28, _⟩ => ⟨S256x256, .f32⟩
  | .hbm, ⟨29, _⟩ => ⟨S256x256, .f32⟩
  | .hbm, ⟨30, _⟩ => ⟨S1x256, .f32⟩
  | .hbm, ⟨31, _⟩ => ⟨S10000x256, .f32⟩
  | .hbm, ⟨32, _⟩ => ⟨S10000x256, .f32⟩
  | .hbm, ⟨33, _⟩ => ⟨S320000x1, .i32⟩
  | .hbm, ⟨34, _⟩ => ⟨S320000x256, .f32⟩
  | .hbm, ⟨35, _⟩ => ⟨S320000x1, .i32⟩
  | .hbm, ⟨36, _⟩ => ⟨S320000x256, .f32⟩
  | .hbm, ⟨37, _⟩ => ⟨S320000x1, .f32⟩
  | .hbm, ⟨38, _⟩ => ⟨S320000x256, .f32⟩
  | .hbm, ⟨39, _⟩ => ⟨S320000x256, .f32⟩
  | .hbm, ⟨40, _⟩ => ⟨S320000x256, .f32⟩
  | .hbm, ⟨41, _⟩ => ⟨S320000x256, .f32⟩
  | .hbm, ⟨42, _⟩ => ⟨S320000x256, .f32⟩
  | .hbm, ⟨43, _⟩ => ⟨S1x256, .f32⟩
  | .hbm, ⟨44, _⟩ => ⟨S320000x256, .f32⟩
  | .hbm, ⟨45, _⟩ => ⟨S320000x256, .f32⟩
  | .hbm, ⟨46, _⟩ => ⟨S320000x256, .bf16⟩
  | .hbm, ⟨47, _⟩ => ⟨S256x256, .f32⟩
  | .hbm, ⟨48, _⟩ => ⟨S256x256, .bf16⟩
  | .hbm, ⟨49, _⟩ => ⟨S1x256, .f32⟩
  | .hbm, ⟨50, _⟩ => ⟨S320000x256, .f32⟩
  | .local _ .vmem, ⟨0, _⟩ => ⟨S6400x256, .bf16⟩
  | .local _ .vmem, ⟨1, _⟩ => ⟨S6400x256, .bf16⟩
  | .local _ .vmem, ⟨2, _⟩ => ⟨S256x256, .bf16⟩
  | .local _ .vmem, ⟨3, _⟩ => ⟨S1x256, .f32⟩
  | .local _ .vmem, ⟨4, _⟩ => ⟨S6400x256, .f32⟩
  | .local _ .vmem, ⟨5, _⟩ => ⟨S6400x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v4 : Ref sig .tc := ⟨.hbm, 18, rfl⟩
abbrev main_c_1 : Ref sig .tc := ⟨.hbm, 19, rfl⟩
abbrev main_c_2 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_call2_v0 : Ref sig .tc := ⟨.hbm, 33, rfl⟩
abbrev main_v12 : Ref sig .tc := ⟨.hbm, 34, rfl⟩
abbrev main_call3_v0 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S6400x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  transposes_S256x513_S513x256_1_0 : S256x513.Transposes [1, 0] S513x256
  slices_S513x256_S256x256_0_0 : S513x256.Slices ![0, 0] S256x256
  slices_S513x256_S256x256_256_0 : S513x256.Slices ![256, 0] S256x256
  slices_S513x256_S1x256_512_0 : S513x256.Slices ![512, 0] S1x256
  bcast_S320000_S320000x1_0 : S320000.BroadcastsInDim S320000x1 (![0] : Fin 1 → Fin S320000x1.rank)
  bcast_S320000x1_S320000x256_0_1 : S320000x1.BroadcastsInDim S320000x256 (![0, 1] : Fin 2 → Fin S320000x256.rank)
  bcast_S1x256_S320000x256_0_1 : S1x256.BroadcastsInDim S320000x256 (![0, 1] : Fin 2 → Fin S320000x256.rank)
  bcast_S256_S1x256_1 : S256.BroadcastsInDim S1x256 (![1] : Fin 1 → Fin S1x256.rank)
  bitsLt_bf16_f32 : FTy.bits .bf16 < FTy.bits .f32
  transposes_S256x256_S256x256_1_0 : S256x256.Transposes [1, 0] S256x256
  inb_S6400x256_S6400x256_0_0 : ∀ a, (![0, 0] : Fin 2 → Nat) a + S6400x256.size a ≤ S6400x256.size a
  h_S6400x256 : 0 < S6400x256.numel
  shapeCasts_S6400x256_S6400x256 : S6400x256.ShapeCasts S6400x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S6400x256 : S1x256.Broadcasts S6400x256
  dot_S10000x256_S256x256_S10000x256_1_0_0_1_n_n_wf : DotDims.WF S10000x256 S256x256 S10000x256 [1] [0] [0] [1] [] []
  gather_S10000x256_S320000x1_S320000x256_1_0_n_n_0_1_1256_wf : GatherDims.WF S10000x256 S320000x1 S320000x256 [1] [0] [] [0] [] 1 ![1, 256]
  dot_S6400x256_S256x256_S6400x256_1_0_0_1_n_n_wf : DotDims.WF S6400x256 S256x256 S6400x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x256.size a ≤ S320000x256.size a
  hwx0_0 : ∀ i : grid0.Coords, EltTy.bits .bf16 = 32 ∨ (Rect.block (s := S320000x256) S6400x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6400x256.size a ≤ S320000x256.size a
  hwx0_3 : ∀ i : grid0.Coords, EltTy.bits .f32 = 32 ∨ (Rect.block (s := S320000x256) S6400x256.size (cc0_transform_3 i) (hinb0_3 i)).WholeWords (EltTy.packing .f32)

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def dot_S6400x256_S256x256_S6400x256_1_0_0_1_n_n : DotDims S6400x256 S256x256 S6400x256 where
  lhsContracting := [1]
  rhsContracting := [0]
  lhsNonContracting := [0]
  rhsNonContracting := [1]
  lhsBatch := []
  rhsBatch := []
  wf := dot_S6400x256_S256x256_S6400x256_1_0_0_1_n_n_wf

abbrev win0_0 : Pipeline.Window sig grid0 :=
  Pipeline.Window.ofSpec (Memref.whole main_v23) S6400x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S6400x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x256 : Shape := ⟨2, ![10000, 256]⟩
abbrev S2x320000 : Shape := ⟨2, ![2, 320000]⟩
abbrev S320000 : Shape := ⟨1, ![320000]⟩
abbrev S256x513 : Shape := ⟨2, ![256, 513]⟩
abbrev S256 : Shape := ⟨1, ![256]⟩
abbrev S256x256 : Shape := ⟨2, ![256, 256]⟩
abbrev S1x320000 : Shape := ⟨2, ![1, 320000]⟩
abbrev S_ : Shape := ⟨0, ![]⟩
abbrev S320000x1 : Shape := ⟨2, ![320000, 1]⟩
abbrev S320000x256 : Shape := ⟨2, ![320000, 256]⟩
abbrev S320000x513 : Shape := ⟨2, ![320000, 513]⟩
abbrev S513x256 : Shape := ⟨2, ![513, 256]⟩
abbrev S1x256 : Shape := ⟨2, ![1, 256]⟩

abbrev nBuf : Space → Nat
  | .hbm => 50
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S320000, .f32⟩
  | .hbm, ⟨3, _⟩ => ⟨S256x513, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S1x320000, .i32⟩
  | .hbm, ⟨8, _⟩ => ⟨S320000, .i32⟩
  | .hbm, ⟨9, _⟩ => ⟨S1x320000, .i32⟩
  | .hbm, ⟨10, _⟩ => ⟨S320000, .i32⟩
  | .hbm, ⟨11, _⟩ => ⟨S_, .i32⟩
  | .hbm, ⟨12, _⟩ => ⟨S320000, .i32⟩
  | .hbm, ⟨13, _⟩ => ⟨S320000, .i1⟩
  | .hbm, ⟨14, _⟩ => ⟨S_, .i32⟩
  | .hbm, ⟨15, _⟩ => ⟨S320000, .i32⟩
  | .hbm, ⟨16, _⟩ => ⟨S320000, .i32⟩
  | .hbm, ⟨17, _⟩ => ⟨S320000, .i32⟩
  | .hbm, ⟨18, _⟩ => ⟨S320000x1, .i32⟩
  | .hbm, ⟨19, _⟩ => ⟨S320000x256, .f32⟩
  | .hbm, ⟨20, _⟩ => ⟨S_, .i32⟩
  | .hbm, ⟨21, _⟩ => ⟨S320000, .i32⟩
  | .hbm, ⟨22, _⟩ => ⟨S320000, .i1⟩
  | .hbm, ⟨23, _⟩ => ⟨S_, .i32⟩
  | .hbm, ⟨24, _⟩ => ⟨S320000, .i32⟩
  | .hbm, ⟨25, _⟩ => ⟨S320000, .i32⟩
  | .hbm, ⟨26, _⟩ => ⟨S320000, .i32⟩
  | .hbm, ⟨27, _⟩ => ⟨S320000x1, .i32⟩
  | .hbm, ⟨28, _⟩ => ⟨S320000x256, .f32⟩
  | .hbm, ⟨29, _⟩ => ⟨S320000x1, .f32⟩
  | .hbm, ⟨30, _⟩ => ⟨S320000x513, .f32⟩
  | .hbm, ⟨31, _⟩ => ⟨S513x256, .f32⟩
  | .hbm, ⟨32, _⟩ => ⟨S320000x256, .f32⟩
  | .hbm, ⟨33, _⟩ => ⟨S1x256, .f32⟩
  | .hbm, ⟨34, _⟩ => ⟨S320000x256, .f32⟩
  | .hbm, ⟨35, _⟩ => ⟨S320000x256, .f32⟩
  | .hbm, ⟨36, _⟩ => ⟨S320000x256, .f32⟩
  | .hbm, ⟨37, _⟩ => ⟨S320000x256, .f32⟩
  | .hbm, ⟨38, _⟩ => ⟨S_, .f32⟩
  | .hbm, ⟨39, _⟩ => ⟨S320000x256, .f32⟩
  | .hbm, ⟨40, _⟩ => ⟨S320000x256, .f32⟩
  | .hbm, ⟨41, _⟩ => ⟨S_, .f32⟩
  | .hbm, ⟨42, _⟩ => ⟨S320000x256, .f32⟩
  | .hbm, ⟨43, _⟩ => ⟨S320000x256, .f32⟩
  | .hbm, ⟨44, _⟩ => ⟨S320000x256, .f32⟩
  | .hbm, ⟨45, _⟩ => ⟨S256x256, .f32⟩
  | .hbm, ⟨46, _⟩ => ⟨S320000x256, .f32⟩
  | .hbm, ⟨47, _⟩ => ⟨S1x256, .f32⟩
  | .hbm, ⟨48, _⟩ => ⟨S320000x256, .f32⟩
  | .hbm, ⟨49, _⟩ => ⟨S320000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  concatenates_S320000x256_S320000x256_S320000x1_S320000x513_d1 : Shape.Concatenates [S320000x256, S320000x256, S320000x1] S320000x513 1
  transposes_S256x513_S513x256_1_0 : S256x513.Transposes [1, 0] S513x256
  bcast_S256_S1x256_1 : S256.BroadcastsInDim S1x256 (![1] : Fin 1 → Fin S1x256.rank)
  bcast_S1x256_S320000x256_0_1 : S1x256.BroadcastsInDim S320000x256 (![0, 1] : Fin 2 → Fin S320000x256.rank)
  bcast_S_S320000x256 : S_.BroadcastsInDim S320000x256 (![] : Fin 0 → Fin S320000x256.rank)
  transposes_S256x256_S256x256_1_0 : S256x256.Transposes [1, 0] S256x256
  gather_S10000x256_S320000x1_S320000x256_1_0_n_n_0_1_1256_wf : GatherDims.WF S10000x256 S320000x1 S320000x256 [1] [0] [] [0] [] 1 ![1, 256]
  dot_S320000x513_S513x256_S320000x256_1_0_0_1_n_n_wf : DotDims.WF S320000x513 S513x256 S320000x256 [1] [0] [0] [1] [] []
  dot_S320000x256_S256x256_S320000x256_1_0_0_1_n_n_wf : DotDims.WF S320000x256 S256x256 S320000x256 [1] [0] [0] [1] [] []

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def dot_S320000x513_S513x256_S320000x256_1_0_0_1_n_n : DotDims S320000x513 S513x256 S320000x256 where
  lhsContracting := [1]
  rhsContracting := [0]
  lhsNonContracting := [0]
  rhsNonContracting := [1]
  lhsBatch := []
  rhsBatch := []
  wf := dot_S320000x513_S513x256_S320000x256_1_0_0_1_n_n_wf
def dot_S320000x256_S256x256_S320000x256_1_0_0_1_n_n : DotDims S320000x256 S256x256 S320000x256 where
  lhsContracting := [1]
  rhsContracting := [0]
  lhsNonContracting := [0]
  rhsNonContracting := [1]
  lhsBatch := []
  rhsBatch := []
  wf := dot_S320000x256_S256x256_S320000x256_1_0_0_1_n_n_wf

class Facts : Prop extends Facts₀ where

variable [Facts]
-- ==== Proof.KernelHostTerm.lean ====
/-
  What the launch finds in its three input arrays, as pure functions of the program's arguments.

  Before the launch the program computes, on the host: the two rows of the index array, each clipped into
  [0, 9999]; the transpose of W1 and its three row blocks (the sender's 256 rows, the receiver's 256 rows, the
  edge-length row); the node table projected through the sender's and through the receiver's block; the projected
  rows gathered per edge; and their sum with `len ⊗ (edge-length row)` and the bias `b1`, narrowed — the
  pre-activation array the kernel's first window stages. The second window stages the transpose of W2, narrowed,
  and the third `b2` as a row.
-/
import proofs.«430021_j35691178230143_3_alg».proof.Proof.Gen.KernelIdeal.Frame
import Idealize.ShloMosaic.Lib.StableHlo.Run

noncomputable section

namespace Cert.KernelIdeal.HostValue

open Cert.KernelIdeal Cert.KernelIdeal.Gen Idealize.ShloMosaic Idealize.ShloMosaic.TcCoe Idealize.SL.Sem
open Idealize.ShloMosaic.StableHlo

variable {F : FTy → Type} [FloatOps F]

/-- Row 0 / row 1 of the index array, as a vector of 320000 words. -/
def idxRow0 (x1 : IVec S2x320000 32) : IVec S320000 32 :=
  shapeCast S320000 (extractStridedSlice S1x320000 ![0, 0] x1 slices_S2x320000_S1x320000_0_0) shapeCasts_S1x320000_S320000
def idxRow1 (x1 : IVec S2x320000 32) : IVec S320000 32 :=
  shapeCast S320000 (extractStridedSlice S1x320000 ![1, 0] x1 slices_S2x320000_S1x320000_1_0) shapeCasts_S1x320000_S320000

/-- `min(9999, max(0, w))`, word by word. -/
def clip (w : IVec S320000 32) : IVec S320000 32 :=
  minsi (broadcastInDim S320000 ![] bcast_S_S320000 (id (constantI S_ 32 9999#32)))
    (maxsi (broadcastInDim S320000 ![] bcast_S_S320000 (id (constantI S_ 32 0#32))) w)

/-- W1 transposed, and its three row blocks. -/
def w1T (x3 : FVec F S256x513 .f32) : FVec F S513x256 .f32 := transpose S513x256 [1, 0] x3 transposes_S256x513_S513x256_1_0
def w1s (x3 : FVec F S256x513 .f32) : FVec F S256x256 .f32 := extractStridedSlice S256x256 ![0, 0] (w1T x3) slices_S513x256_S256x256_0_0
def w1r (x3 : FVec F S256x513 .f32) : FVec F S256x256 .f32 := extractStridedSlice S256x256 ![256, 0] (w1T x3) slices_S513x256_S256x256_256_0
def w1e (x3 : FVec F S256x513 .f32) : FVec F S1x256 .f32 := extractStridedSlice S1x256 ![512, 0] (w1T x3) slices_S513x256_S1x256_512_0

/-- The node table through one 256 × 256 block. -/
def proj (x0 : FVec F S10000x256 .f32) (w : FVec F S256x256 .f32) : FVec F S10000x256 .f32 :=
  Host.dotGeneral dot_S10000x256_S256x256_S10000x256_1_0_0_1_n_n (some .fp32) x0 w

/-- The rows of a projected table the index words name, one per edge. -/
def take (p : FVec F S10000x256 .f32) (w : IVec S320000 32) : FVec F S320000x256 .f32 :=
  Host.gather gather_S10000x256_S320000x1_S320000x256_1_0_n_n_0_1_1256 p (broadcastInDim S320000x1 ![0] bcast_S320000_S320000x1_0 w)

/-- The pre-activation array, narrowed: what window 0 stages. -/
def hpre (x0 : FVec F S10000x256 .f32) (x1 : IVec S2x320000 32) (x2 : FVec F S320000 .f32) (x3 : FVec F S256x513 .f32)
    (x4 : FVec F S256 .f32) : FVec F S320000x256 .bf16 :=
  truncf .bf16
    (addf
      (addf
        (addf (take (proj x0 (w1s x3)) (clip (idxRow0 x1))) (take (proj x0 (w1r x3)) (clip (idxRow1 x1))))
        (mulf (broadcastInDim S320000x256 ![0, 1] bcast_S320000x1_S320000x256_0_1 (broadcastInDim S320000x1 ![0] bcast_S320000_S320000x1_0 x2))
          (broadcastInDim S320000x256 ![0, 1] bcast_S1x256_S320000x256_0_1 (w1e x3))))
      (broadcastInDim S320000x256 ![0, 1] bcast_S1x256_S320000x256_0_1 (broadcastInDim S1x256 ![1] bcast_S256_S1x256_1 x4)))
    bitsLt_bf16_f32

/-- W2 transposed, narrowed: what window 1 stages. -/
def w2T (x5 : FVec F S256x256 .f32) : FVec F S256x256 .bf16 :=
  truncf .bf16 (transpose S256x256 [1, 0] x5 transposes_S256x256_S256x256_1_0) bitsLt_bf16_f32

/-- `b2` as a row: what window 2 stages. -/
def b2Row (x6 : FVec F S256 .f32) : FVec F S1x256 .f32 := broadcastInDim S1x256 ![1] bcast_S256_S1x256_1 x6

variable (m : (ℓ : Loc nD τ sig) → Buf (Elt F) ℓ)

set_option maxHeartbeats 4000000 in
set_option maxRecDepth 8192 in
/-- Window 0's array as the launch finds it. -/
theorem V_hpre (c : Dev nD) :
    (V m c main_v23 : S320000x256.Idx → Elt F .bf16)
      = hpre (m ((c : Thread nD τ).loc main_arg0)) (m ((c : Thread nD τ).loc main_arg1)) (m ((c : Thread nD τ).loc main_arg2))
          (m ((c : Thread nD τ).loc main_arg3)) (m ((c : Thread nD τ).loc main_arg4)) := by
  dsimp only [V]
  simp only [hostOps0, hostOps0_1, hostOps0_2, hostOps0_3, hostOps0_4, hostOps0_5, hostOps0_6, hostOps0_7, List.flatten_cons,
    List.flatten_nil, List.append_nil, List.cons_append, List.nil_append]
  after_results_simp <;> rfl

set_option maxHeartbeats 4000000 in
set_option maxRecDepth 8192 in
/-- Window 1's array as the launch finds it. -/
theorem V_w2T (c : Dev nD) :
    (V m c main_v25 : S256x256.Idx → Elt F .bf16) = w2T (m ((c : Thread nD τ).loc main_arg5)) := by
  dsimp only [V]
  simp only [hostOps0, hostOps0_1, hostOps0_2, hostOps0_3, hostOps0_4, hostOps0_5, hostOps0_6, hostOps0_7, List.flatten_cons,
    List.flatten_nil, List.append_nil, List.cons_append, List.nil_append]
  after_results_simp <;> rfl

set_option maxHeartbeats 4000000 in
set_option maxRecDepth 8192 in
/-- Window 2's array as the launch finds it. -/
theorem V_b2Row (c : Dev nD) :
    (V m c main_v26 : S1x256.Idx → Elt F .f32) = b2Row (m ((c : Thread nD τ).loc main_arg6)) := by
  dsimp only [V]
  simp only [hostOps0, hostOps0_1, hostOps0_2, hostOps0_3, hostOps0_4, hostOps0_5, hostOps0_6, hostOps0_7, List.flatten_cons,
    List.flatten_nil, List.append_nil, List.cons_append, List.nil_append]
  after_results_simp <;> rfl

end Cert.KernelIdeal.HostValue

end
-- ==== Proof.Spec.lean ====
/-
  The edge-state network as one function of its argument arrays, over the extended reals.

  For an edge `e` with sender node `s` and receiver node `r`, the first layer's pre-activation at unit `k` is
      Σ_{d<256} X[s,d]·W1[k,d] + Σ_{d<256} X[r,d]·W1[k,256+d] + len[e]·W1[k,512] + b1[k],
  the hidden state is `silu` of it (`x · 1/(1 + e^(−x))`), and the result at `(e, j)` is
      Σ_{k<256} silu(pre[e,k])·W2[j,k] + b2[j].
  Both programs compute this function: one contracts the 513 columns of `[X[s,:], X[r,:], len[e]]` against `W1` at
  once, the other contracts the two 256-column pieces against the node table first and adds the last column's
  product. The law that joins them is the splitting of a sum over 513 indices into its first 256, its next 256
  and its last one (`sum_split`): addition of extended reals is commutative and associative, so no finiteness is
  needed.
-/
import Idealize.ShloMosaic.PureOps.Ideal
import Idealize.ShloMosaic.Lib.ValueIdx
import Mathlib.Algebra.BigOperators.Fin

noncomputable section

namespace Cert.EdgeMlp

open Idealize.ShloMosaic Idealize.ShloMosaic.ValueIdx

/-- The node an index word names: the word read signed, brought into `[0, 9999]`. On words already in that range
    (the domain of the statement) it is the word's value. -/
def node (z : BitVec 32) : Fin 10000 := ⟨min z.toInt.toNat 9999, by omega⟩

theorem node_val {z : BitVec 32} (h0 : 0 ≤ z.toInt) (h1 : z.toInt < 10000) : z.toInt = ((node z).val : Int) := by
  unfold node
  show z.toInt = ((min z.toInt.toNat 9999 : Nat) : Int)
  omega

/-- `silu x = x · σ(x)`, the logistic function at the extended reals' corners as the library fixes them. -/
def silu (x : EReal) : EReal := x * Ideal.logistic x

/-- Column `d` of the sender's piece, of the receiver's piece, and the edge-length column, among W1's 513 inputs. -/
def colS (d : Fin 256) : Fin 513 := ⟨d.val, by omega⟩
def colR (d : Fin 256) : Fin 513 := ⟨256 + d.val, by omega⟩
def colE : Fin 513 := ⟨512, by omega⟩

/-- A sum over the 513 input columns is the sum over the sender's, the receiver's, and the last one. -/
theorem sum_split {M : Type*} [AddCommMonoid M] (f : Fin 513 → M) :
    ∑ d, f d = (∑ d : Fin 256, f (colS d)) + (∑ d : Fin 256, f (colR d)) + f colE := by
  have h1 := Fin.sum_univ_castSucc (n := 512) f
  have h2 := Fin.sum_univ_add (a := 256) (b := 256) (fun i : Fin (256 + 256) => f (Fin.castSucc (n := 512) i))
  rw [h1, h2]
  rfl

variable (X : (⟨2, ![10000, 256]⟩ : Shape).Idx → EReal) (ei : (⟨2, ![2, 320000]⟩ : Shape).Idx → BitVec 32)
  (len : (⟨1, ![320000]⟩ : Shape).Idx → EReal) (W1 : (⟨2, ![256, 513]⟩ : Shape).Idx → EReal)
  (b1 : (⟨1, ![256]⟩ : Shape).Idx → EReal) (W2 : (⟨2, ![256, 256]⟩ : Shape).Idx → EReal)
  (b2 : (⟨1, ![256]⟩ : Shape).Idx → EReal)

/-- The sender (row 0 of the index array) and the receiver (row 1) of edge `e`. -/
def sender (e : Fin 320000) : Fin 10000 := node (ei (ix2 0 e))
def receiver (e : Fin 320000) : Fin 10000 := node (ei (ix2 1 e))

/-- The first layer's pre-activation of edge `e` at hidden unit `k`. -/
def pre (e : Fin 320000) (k : Fin 256) : EReal :=
  (∑ d : Fin 256, X (ix2 (sender ei e) d) * W1 (ix2 k (colS d)))
    + (∑ d : Fin 256, X (ix2 (receiver ei e) d) * W1 (ix2 k (colR d)))
    + len (ix1 e) * W1 (ix2 k colE) + b1 (ix1 k)

/-- The network's result at `(e, j)`. -/
def out : (⟨2, ![320000, 256]⟩ : Shape).Idx → EReal := fun i =>
  (∑ k : Fin 256, silu (pre X ei len W1 b1 (i 0) k) * W2 (ix2 (i 1) k)) + b2 (ix1 (i 1))

end Cert.EdgeMlp

end
-- ==== Proof.IndexWords.lean ====
/-
  Index words in range.

  An edge's endpoints are 32-bit words read signed. On a word `w` with `0 ≤ w < 10000`:
  the clip `min(9999, max(0, w))` is `w`; numpy's wrap of a negative index (`w < 0 ? w + 10000 : w`) is `w`;
  and the two comparisons the precondition makes (`w ≥ 0`, `w < 10000`) say exactly that.
-/
import Idealize.ShloMosaic.PureOps.Float
import Idealize.ShloMosaic.Lib.ValueIdx

namespace Cert.EdgeMlp

open Idealize.ShloMosaic

theorem toInt_zero32 : (0#32 : BitVec 32).toInt = 0 := by decide
theorem toInt_9999 : (9999#32 : BitVec 32).toInt = 9999 := by decide
theorem toInt_10000 : (10000#32 : BitVec 32).toInt = 10000 := by decide

/-- The signed test `w ≥ 0`. -/
theorem sge_zero_iff (w : BitVec 32) : IntOp.cmpi .sge w 0#32 = 1#1 ↔ 0 ≤ w.toInt := by
  unfold IntOp.cmpi
  by_cases h : 0 ≤ w.toInt
  · simp [BitVec.sle, toInt_zero32, h]
  · simp [BitVec.sle, toInt_zero32, h]

/-- The signed test `w < 10000`. -/
theorem slt_tenk_iff (w : BitVec 32) : IntOp.cmpi .slt w 10000#32 = 1#1 ↔ w.toInt < 10000 := by
  unfold IntOp.cmpi
  by_cases h : w.toInt < 10000
  · simp [BitVec.slt, toInt_10000, h]
  · simp [BitVec.slt, toInt_10000, h]

/-- Clipping into `[0, 9999]` leaves a word of that range alone. -/
theorem clip_eq {w : BitVec 32} (h0 : 0 ≤ w.toInt) (h1 : w.toInt < 10000) :
    IntOp.minsi 9999#32 (IntOp.maxsi 0#32 w) = w := by
  have hmax : IntOp.maxsi 0#32 w = w := by
    unfold IntOp.maxsi
    rw [if_neg (by simp only [BitVec.slt, toInt_zero32, decide_eq_true_eq]; omega)]
  rw [hmax]
  unfold IntOp.minsi
  rw [if_neg (by simp only [BitVec.slt, toInt_9999, decide_eq_true_eq]; omega)]

/-- The wrap of a negative index does nothing to a non-negative word. -/
theorem wrap_eq {w : BitVec 32} (h0 : 0 ≤ w.toInt) (a : BitVec 32) :
    Scalar.select (IntOp.cmpi .slt w 0#32) a w = w := by
  have hc : IntOp.cmpi .slt w 0#32 = 0#1 := by
    unfold IntOp.cmpi
    have : w.slt 0#32 = false := by simp only [BitVec.slt, toInt_zero32, decide_eq_false_iff_not]; omega
    rw [this]; rfl
  rw [hc]
  exact ValueIdx.select_zero a w

end Cert.EdgeMlp
-- ==== Proof.LibPlainDot.lean ====
/-
  A plain two-dimensional contraction read at an index.

  A matrix product `[M, K] × [K, N] → [M, N]` (the left operand contracted on its second axis, the right on its
  first, no batch axes) sums, at the result index `(a, b)`, over the contraction shape's indices; that shape has
  one axis of extent `K`, so the sum is the sum over `k : Fin K` of whatever is summed, read at the left index
  `(a, k)` and the right index `(k, b)`. Stated for an arbitrary dimension-number record with equations naming its
  fields, so that it applies to any record whose fields are those lists by `rfl`; and for an arbitrary summand, so
  that it serves the kernel's matrix product and the host's alike.
-/
import Idealize.ShloMosaic.PureOps.Dims
import Idealize.ShloMosaic.PureOps.Ideal
import Idealize.ShloMosaic.PureOps.Ideal.Laws
import Idealize.ShloMosaic.Lib.ValueIdx
import Mathlib.Algebra.BigOperators.Group.Finset.Basic
import Mathlib.Data.Fintype.BigOperators

noncomputable section

namespace Idealize.ShloMosaic.PlainDot

open Idealize.ShloMosaic Idealize.ShloMosaic.ValueIdx

variable {M K N : Nat}

/-- The literal record of a plain product. -/
private abbrev lit (wf : DotDims.WF ⟨2, ![M, K]⟩ ⟨2, ![K, N]⟩ ⟨2, ![M, N]⟩ [1] [0] [0] [1] [] []) : DotDims ⟨2, ![M, K]⟩ ⟨2, ![K, N]⟩ ⟨2, ![M, N]⟩ := ⟨[1], [0], [0], [1], [], [], wf⟩

private theorem lit_lhsIdx (wf) (a : Fin M) (b : Fin N) (k : Fin K) :
    (lit (M := M) (K := K) (N := N) wf).lhsIdx (ix2 a b) ((contrEquiv1 (lit wf) K rfl rfl).symm k) = ix2 a k := by
  funext x
  refine Fin.ext ?_
  match x with
  | ⟨0, _⟩ =>
    show ((lit (M := M) (K := K) (N := N) wf).lhsIdx (ix2 a b) _ 0).val = a.val
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  | ⟨1, _⟩ =>
    show ((lit (M := M) (K := K) (N := N) wf).lhsIdx (ix2 a b) _ 1).val = k.val
    exact ((lit wf).lhsIdx_val_of_single rfl _ _).trans (contrEquiv1_symm_val (lit wf) K rfl rfl k)

private theorem lit_rhsIdx (wf) (a : Fin M) (b : Fin N) (k : Fin K) :
    (lit (M := M) (K := K) (N := N) wf).rhsIdx (ix2 a b) ((contrEquiv1 (lit wf) K rfl rfl).symm k) = ix2 k b := by
  funext x
  refine Fin.ext ?_
  match x with
  | ⟨0, _⟩ =>
    show ((lit (M := M) (K := K) (N := N) wf).rhsIdx (ix2 a b) _ 0).val = k.val
    exact ((lit wf).rhsIdx_val_of_single rfl _ _).trans (contrEquiv1_symm_val (lit wf) K rfl rfl k)
  | ⟨1, _⟩ =>
    show ((lit (M := M) (K := K) (N := N) wf).rhsIdx (ix2 a b) _ 1).val = b.val
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl

/-- A sum over the contraction index of a plain product, at the result index `(a, b)`, is the sum over
    `k : Fin K` with the left index `(a, k)` and the right index `(k, b)`. -/
theorem sum_contr {β : Type*} [AddCommMonoid β] (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (f : (⟨2, ![M, K]⟩ : Shape).Idx → (⟨2, ![K, N]⟩ : Shape).Idx → β) (a : Fin M) (b : Fin N) :
    ∑ q : d.contr.Idx, f (d.lhsIdx (ix2 a b) q) (d.rhsIdx (ix2 a b) q) = ∑ k : Fin K, f (ix2 a k) (ix2 k b) := by
  obtain ⟨lc, rc, ln, rn, lb, rb, wf⟩ := d
  dsimp only at hlc hrc hln hrn hlb hrb
  subst hlc hrc hln hrn hlb hrb
  rw [← Equiv.sum_comp (contrEquiv1 (lit wf) K rfl rfl).symm]
  refine Finset.sum_congr rfl fun k _ => ?_
  rw [lit_lhsIdx wf a b k, lit_rhsIdx wf a b k]

/-- The kernel's matrix product into a zero accumulator, over the extended reals, at `(a, b)`. -/
theorem matmul_zero_apply {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (a : Fin M) (b : Fin N) :
    matmul d prec l r (constant ⟨2, ![M, N]⟩ .f32 0x00000000#32) (ix2 a b) = ∑ k : Fin K, l (ix2 a k) * r (ix2 k b) := by
  simp only [matmul]
  rw [Ideal.matmul_constant_zero_apply]
  exact sum_contr d hlc hrc hln hrn hlb hrb (fun x y => l x * r y) a b

/-- The host's product, over the extended reals, at `(a, b)`. -/
theorem dotGeneral_apply {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (a : Fin M) (b : Fin N) :
    Host.dotGeneral d prec l r (ix2 a b) = ∑ k : Fin K, l (ix2 a k) * r (ix2 k b) := by
  simp only [Host.dotGeneral]
  rw [Ideal.dotGeneral_apply]
  exact sum_contr d hlc hrc hln hrn hlb hrb (fun x y => l x * r y) a b

end Idealize.ShloMosaic.PlainDot

end
-- ==== Proof.LibGatherScatterRows.lean ====
/-
  Row gathers and row scatter-adds read at an index.

  A `stablehlo.gather` that picks whole rows of a rank-2 or rank-3 operand by one start index per
  result row (axis 0 collapsed, the other axes offset axes, slice sizes 1 × the row), and a float
  `stablehlo.scatter` with an `add` body that accumulates update rows into the operand's rows named by
  one scatter index per update row (axis 0 inserted, the other axes window axes), at the exact instance.
  Each statement takes an arbitrary dimension-number record with equations naming its fields, so it
  applies to any record whose fields are those lists by `rfl`.
-/
import Idealize.ShloMosaic.PureOps.ShapeOps
import Idealize.ShloMosaic.PureOps.Ideal
import Idealize.ShloMosaic.PureOps.Contract
import Idealize.ShloMosaic.Lib.ValueIdx
import Mathlib.Algebra.BigOperators.Group.Finset.Basic
import Mathlib.Data.Fintype.BigOperators

noncomputable section

namespace Idealize.ShloMosaic.RowsGS

open Idealize.ShloMosaic Idealize.ShloMosaic.ValueIdx

variable {N C A B E w : Nat} {α : Type}

/-! ## The row gather: the operand index a result index reads -/

/-- A signed start index that is a row number `n < N`, clamped into `[0, N − 1]`, is `n`. -/
private theorem clamp_eq {z : Int} (n : Fin N) (hz : z = (n.val : Int)) : min z.toNat (N - 1) = n.val := by
  rw [hz, Int.toNat_natCast]
  have := n.isLt
  omega

/-- Rank 2: result index `(e, c)` reads the operand at `(idx[e], c)`, the start inside the operand. -/
private theorem g2_operandIdx (wf) (idx : IVec ⟨2, ![E, 1]⟩ w) (e : Fin E) (c : Fin C) (n : Fin N)
    (hn : (idx (ix2 e 0)).toInt = (n.val : Int)) :
    (⟨[1], [0], [], [], [0], 1, ![1, C], wf⟩ : GatherDims ⟨2, ![N, C]⟩ ⟨2, ![E, 1]⟩ ⟨2, ![E, C]⟩).operandIdx
        (ix2 e c) idx = ix2 n c := by
  funext a
  refine Fin.ext ?_
  show GatherDims.start _ (ix2 e c) idx a + GatherDims.batchCoord _ (ix2 e c) a + GatherDims.offCoord _ (ix2 e c) a = _
  rw [GatherDims.batchCoord_eq_zero _ _ _ List.not_mem_nil, Nat.add_zero]
  match a with
  | ⟨0, _⟩ =>
    show GatherDims.start _ (ix2 e c) idx 0 + GatherDims.offCoord _ (ix2 e c) 0 = n.val
    rw [GatherDims.offCoord_eq_zero _ _ _ (fun h => ((GatherDims.mem_sKept _ _).mp h).1 (List.mem_singleton.mpr rfl)),
      Nat.add_zero]
    unfold GatherDims.start
    rw [dif_pos (List.mem_cons_self)]
    have hsi : GatherDims.siIdx (⟨[1], [0], [], [], [0], 1, ![1, C], wf⟩ :
        GatherDims ⟨2, ![N, C]⟩ ⟨2, ![E, 1]⟩ ⟨2, ![E, C]⟩) (ix2 e c)
        ⟨List.idxOf (0 : Fin 2) [0], List.idxOf_lt_length_iff.2 List.mem_cons_self⟩ = ix2 e 0 := by
      funext b'; refine Fin.ext ?_
      match b' with
      | ⟨0, _⟩ => rfl
      | ⟨1, _⟩ => rfl
    rw [hsi]
    exact clamp_eq n hn
  | ⟨1, _⟩ =>
    have hs : GatherDims.start (⟨[1], [0], [], [], [0], 1, ![1, C], wf⟩ :
        GatherDims ⟨2, ![N, C]⟩ ⟨2, ![E, 1]⟩ ⟨2, ![E, C]⟩) (ix2 e c) idx 1 = 0 := by
      unfold GatherDims.start; rw [dif_neg (by simp)]
    show GatherDims.start _ (ix2 e c) idx 1 + GatherDims.offCoord _ (ix2 e c) 1 = c.val
    rw [hs, Nat.zero_add]; rfl

/-- `x[idx]` over a rank-2 operand READ AT (e, c), the start inside the operand: the operand's row idx[e]. -/
theorem gather_rows2_apply (d : GatherDims ⟨2, ![N, C]⟩ ⟨2, ![E, 1]⟩ ⟨2, ![E, C]⟩)
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![E, 1]⟩ w) (e : Fin E) (c : Fin C) (n : Fin N)
    (hn : (idx (ix2 e 0)).toInt = (n.val : Int)) :
    Host.gather d x idx (ix2 e c) = x (ix2 n c) := by
  obtain ⟨od, cs, ob, sb, sm, iv, ss, wf⟩ := d
  dsimp only at hod hcs hob hsb hsm hiv hss
  subst hod hcs hob hsb hsm hiv hss
  unfold Host.gather
  rw [g2_operandIdx wf idx e c n hn]

/-- Rank 3: result index `(e, a, b)` reads the operand at `(idx[e], a, b)`, the start inside the operand. -/
private theorem g3_operandIdx (wf) (idx : IVec ⟨2, ![E, 1]⟩ w) (e : Fin E) (a : Fin A) (b : Fin B) (n : Fin N)
    (hn : (idx (ix2 e 0)).toInt = (n.val : Int)) :
    (⟨[1, 2], [0], [], [], [0], 1, ![1, A, B], wf⟩ : GatherDims ⟨3, ![N, A, B]⟩ ⟨2, ![E, 1]⟩ ⟨3, ![E, A, B]⟩).operandIdx
        (ix3 e a b) idx = ix3 n a b := by
  funext k
  refine Fin.ext ?_
  show GatherDims.start _ (ix3 e a b) idx k + GatherDims.batchCoord _ (ix3 e a b) k + GatherDims.offCoord _ (ix3 e a b) k = _
  rw [GatherDims.batchCoord_eq_zero _ _ _ List.not_mem_nil, Nat.add_zero]
  match k with
  | ⟨0, _⟩ =>
    show GatherDims.start _ (ix3 e a b) idx 0 + GatherDims.offCoord _ (ix3 e a b) 0 = n.val
    rw [GatherDims.offCoord_eq_zero _ _ _ (fun h => ((GatherDims.mem_sKept _ _).mp h).1 (List.mem_singleton.mpr rfl)),
      Nat.add_zero]
    unfold GatherDims.start
    rw [dif_pos (List.mem_cons_self)]
    have hsi : GatherDims.siIdx (⟨[1, 2], [0], [], [], [0], 1, ![1, A, B], wf⟩ :
        GatherDims ⟨3, ![N, A, B]⟩ ⟨2, ![E, 1]⟩ ⟨3, ![E, A, B]⟩) (ix3 e a b)
        ⟨List.idxOf (0 : Fin 3) [0], List.idxOf_lt_length_iff.2 List.mem_cons_self⟩ = ix2 e 0 := by
      funext b'; refine Fin.ext ?_
      match b' with
      | ⟨0, _⟩ => rfl
      | ⟨1, _⟩ => rfl
    rw [hsi]
    exact clamp_eq n hn
  | ⟨1, _⟩ =>
    have hs : GatherDims.start (⟨[1, 2], [0], [], [], [0], 1, ![1, A, B], wf⟩ :
        GatherDims ⟨3, ![N, A, B]⟩ ⟨2, ![E, 1]⟩ ⟨3, ![E, A, B]⟩) (ix3 e a b) idx 1 = 0 := by
      unfold GatherDims.start; rw [dif_neg (by simp)]
    show GatherDims.start _ (ix3 e a b) idx 1 + GatherDims.offCoord _ (ix3 e a b) 1 = a.val
    rw [hs, Nat.zero_add]; rfl
  | ⟨2, _⟩ =>
    have hs : GatherDims.start (⟨[1, 2], [0], [], [], [0], 1, ![1, A, B], wf⟩ :
        GatherDims ⟨3, ![N, A, B]⟩ ⟨2, ![E, 1]⟩ ⟨3, ![E, A, B]⟩) (ix3 e a b) idx 2 = 0 := by
      unfold GatherDims.start; rw [dif_neg (by simp)]
    show GatherDims.start _ (ix3 e a b) idx 2 + GatherDims.offCoord _ (ix3 e a b) 2 = b.val
    rw [hs, Nat.zero_add]; rfl

/-- `x[idx]` over a rank-3 operand READ AT (e, a, b), the start inside the operand: the operand's slab idx[e]. -/
theorem gather_rows3_apply (d : GatherDims ⟨3, ![N, A, B]⟩ ⟨2, ![E, 1]⟩ ⟨3, ![E, A, B]⟩)
    (hod : d.offsetDims = [1, 2]) (hcs : d.collapsedSliceDims = [0]) (hob : d.operandBatchingDims = [])
    (hsb : d.startIndicesBatchingDims = []) (hsm : d.startIndexMap = [0]) (hiv : d.indexVectorDim = 1)
    (hss : d.sliceSizes = ![1, A, B])
    (x : (⟨3, ![N, A, B]⟩ : Shape).Idx → α) (idx : IVec ⟨2, ![E, 1]⟩ w) (e : Fin E) (a : Fin A) (b : Fin B) (n : Fin N)
    (hn : (idx (ix2 e 0)).toInt = (n.val : Int)) :
    Host.gather d x idx (ix3 e a b) = x (ix3 n a b) := by
  obtain ⟨od, cs, ob, sb, sm, iv, ss, wf⟩ := d
  dsimp only at hod hcs hob hsb hsm hiv hss
  subst hod hcs hob hsb hsm hiv hss
  unfold Host.gather
  rw [g3_operandIdx wf idx e a b n hn]

/-! ## The row scatter: the target of an update position -/

/-- An update position lands on `i` exactly when, on every axis, the signed start plus the window
    coordinate is `i`'s coordinate. -/
private theorem resultIdx?_eq_some {s si u : Shape} (d : ScatterDims s si u) (j : u.Idx) (idx : IVec si w) (i : s.Idx) :
    d.resultIdx? j idx = some i ↔ ∀ a, d.start j idx a + (d.window j a : Int) = ((i a).val : Int) := by
  unfold ScatterDims.resultIdx?
  by_cases hr : ∀ a, 0 ≤ d.start j idx a + d.window j a ∧ d.start j idx a + d.window j a < s.size a
  · rw [dif_pos hr, Option.some_inj]
    constructor
    · intro h a
      have h2 := congrArg Fin.val (congrFun h a)
      simp only at h2
      have := (hr a).1
      omega
    · intro h; funext a; apply Fin.ext; have := h a; have := (hr a).1; simp only; omega
  · rw [dif_neg hr]
    constructor
    · intro h; cases h
    · intro h; exact absurd (fun a => by have := h a; have := (i a).isLt; omega) hr

/-- The window coordinate is zero on an inserted axis. -/
private theorem window_inserted {s si u : Shape} (d : ScatterDims s si u) (j : u.Idx) (a : Fin s.rank)
    (ha : a ∈ d.insertedWindowDims) : d.window j a = 0 := by
  unfold ScatterDims.window
  rw [dif_neg]
  simp [ScatterDims.sKept, Shape.kept, List.mem_filter, ha]

/-- The start is zero on an axis the scatter indices do not address. -/
private theorem start_unaddressed {s si u : Shape} (d : ScatterDims s si u) (j : u.Idx) (idx : IVec si w) (a : Fin s.rank)
    (ha : a ∉ d.scatterDimsToOperandDims) : d.start j idx a = 0 := by
  unfold ScatterDims.start
  rw [dif_neg ha]

/-- Rank 2, row axis: the start of update `(e, c')` is the scatter index of row `e`, read signed. -/
private theorem s2_start0 (wf) (idx : IVec ⟨2, ![E, 1]⟩ w) (e : Fin E) (c' : Fin C) :
    (⟨[1], [0], [0], 1, wf⟩ : ScatterDims ⟨2, ![N, C]⟩ ⟨2, ![E, 1]⟩ ⟨2, ![E, C]⟩).start (ix2 e c') idx 0
      = (idx (ix2 e 0)).toInt := by
  unfold ScatterDims.start
  rw [dif_pos (List.mem_cons_self)]
  congr 2
  funext b'; refine Fin.ext ?_
  match b' with
  | ⟨0, _⟩ => rfl
  | ⟨1, _⟩ => rfl

/-- Rank 2, column axis: the window coordinate of update `(e, c')` is `c'`. -/
private theorem s2_window1 (wf) (e : Fin E) (c' : Fin C) :
    (⟨[1], [0], [0], 1, wf⟩ : ScatterDims ⟨2, ![N, C]⟩ ⟨2, ![E, 1]⟩ ⟨2, ![E, C]⟩).window (ix2 e c') 1 = c'.val := rfl

/-- Rank 2: update `(e, c')` lands on `(n, c)` exactly when the scatter index of row `e`, read signed, is
    `n` and `c' = c`. -/
private theorem s2_resultIdx?_iff (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hiv : d.indexVectorDim = 1)
    (idx : IVec ⟨2, ![E, 1]⟩ w) (e : Fin E) (c' : Fin C) (n : Fin N) (c : Fin C) :
    d.resultIdx? (ix2 e c') idx = some (ix2 n c) ↔ (idx (ix2 e 0)).toInt = (n.val : Int) ∧ c' = c := by
  obtain ⟨uw, iw, sd, iv, wf⟩ := d
  dsimp only at huw hiw hsd hiv
  subst huw hiw hsd hiv
  rw [resultIdx?_eq_some]
  have w0 := window_inserted (⟨[1], [0], [0], 1, wf⟩ : ScatterDims ⟨2, ![N, C]⟩ ⟨2, ![E, 1]⟩ ⟨2, ![E, C]⟩)
    (ix2 e c') 0 List.mem_cons_self
  have s1 := start_unaddressed (⟨[1], [0], [0], 1, wf⟩ : ScatterDims ⟨2, ![N, C]⟩ ⟨2, ![E, 1]⟩ ⟨2, ![E, C]⟩)
    (ix2 e c') idx 1 (by simp)
  constructor
  · intro h
    have h0 := h 0
    have h1 := h 1
    rw [s2_start0, w0, Nat.cast_zero, Int.add_zero] at h0
    rw [s1, s2_window1, Int.zero_add] at h1
    exact ⟨h0, Fin.ext (by exact_mod_cast h1)⟩
  · rintro ⟨h0, rfl⟩ a
    match a with
    | ⟨0, _⟩ =>
      show ScatterDims.start _ (ix2 e c') idx 0 + ((ScatterDims.window _ (ix2 e c') 0 : Nat) : Int) = _
      rw [s2_start0, w0, Nat.cast_zero, Int.add_zero]; exact h0
    | ⟨1, _⟩ =>
      show ScatterDims.start _ (ix2 e c') idx 1 + ((ScatterDims.window _ (ix2 e c') 1 : Nat) : Int) = _
      rw [s1, s2_window1, Int.zero_add]

/-- `x.at[idx].add(upd)` over a rank-2 operand READ AT (n, c), at the exact instance: the operand's element plus
    the sum of the update rows aimed at row n (a scatter index outside the operand aims at no row). -/
theorem scatterAdd_rows2_apply (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hiv : d.indexVectorDim = 1)
    (x : (⟨2, ![N, C]⟩ : Shape).Idx → EReal) (idx : IVec ⟨2, ![E, 1]⟩ w) (upd : (⟨2, ![E, C]⟩ : Shape).Idx → EReal)
    (n : Fin N) (c : Fin C) :
    Host.scatterAdd (F := Ideal) (φ := .f32) d x idx upd (ix2 n c)
      = x (ix2 n c) + ∑ e : Fin E, if (idx (ix2 e 0)).toInt = (n.val : Int) then upd (ix2 e c) else 0 := by
  unfold Host.scatterAdd
  rw [Ideal.hostScatterAdd_def]
  unfold Ideal.hostScatterAdd
  congr 1
  rw [Finset.sum_filter, sum_idx2]
  refine Finset.sum_congr rfl fun e _ => ?_
  by_cases he : (idx (ix2 e 0)).toInt = (n.val : Int)
  · rw [if_pos he, Finset.sum_eq_single c]
    · rw [if_pos ((s2_resultIdx?_iff d huw hiw hsd hiv idx e c n c).2 ⟨he, rfl⟩)]
    · intro c' _ hc'
      rw [if_neg fun h => hc' ((s2_resultIdx?_iff d huw hiw hsd hiv idx e c' n c).1 h).2]
    · intro h; exact absurd (Finset.mem_univ _) h
  · rw [if_neg he]
    refine Finset.sum_eq_zero fun c' _ => ?_
    rw [if_neg fun h => he ((s2_resultIdx?_iff d huw hiw hsd hiv idx e c' n c).1 h).1]

/-- A rank-3 index set is the product of its three coordinate ranges … -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
private theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Rank 3, slab axis: the start of update `(e, a', b')` is the scatter index of slab `e`, read signed. -/
private theorem s3_start0 (wf) (idx : IVec ⟨2, ![E, 1]⟩ w) (e : Fin E) (a' : Fin A) (b' : Fin B) :
    (⟨[1, 2], [0], [0], 1, wf⟩ : ScatterDims ⟨3, ![N, A, B]⟩ ⟨2, ![E, 1]⟩ ⟨3, ![E, A, B]⟩).start (ix3 e a' b') idx 0
      = (idx (ix2 e 0)).toInt := by
  unfold ScatterDims.start
  rw [dif_pos (List.mem_cons_self)]
  congr 2
  funext k; refine Fin.ext ?_
  match k with
  | ⟨0, _⟩ => rfl
  | ⟨1, _⟩ => rfl

/-- Rank 3, second axis: the window coordinate of update `(e, a', b')` is `a'`. -/
private theorem s3_window1 (wf) (e : Fin E) (a' : Fin A) (b' : Fin B) :
    (⟨[1, 2], [0], [0], 1, wf⟩ : ScatterDims ⟨3, ![N, A, B]⟩ ⟨2, ![E, 1]⟩ ⟨3, ![E, A, B]⟩).window (ix3 e a' b') 1 = a'.val := rfl

/-- Rank 3, third axis: the window coordinate of update `(e, a', b')` is `b'`. -/
private theorem s3_window2 (wf) (e : Fin E) (a' : Fin A) (b' : Fin B) :
    (⟨[1, 2], [0], [0], 1, wf⟩ : ScatterDims ⟨3, ![N, A, B]⟩ ⟨2, ![E, 1]⟩ ⟨3, ![E, A, B]⟩).window (ix3 e a' b') 2 = b'.val := rfl

/-- Rank 3: update `(e, a', b')` lands on `(n, a, b)` exactly when the scatter index of slab `e`, read
    signed, is `n`, `a' = a` and `b' = b`. -/
private theorem s3_resultIdx?_iff (d : ScatterDims ⟨3, ![N, A, B]⟩ ⟨2, ![E, 1]⟩ ⟨3, ![E, A, B]⟩)
    (huw : d.updateWindowDims = [1, 2]) (hiw : d.insertedWindowDims = [0])
    (hsd : d.scatterDimsToOperandDims = [0]) (hiv : d.indexVectorDim = 1)
    (idx : IVec ⟨2, ![E, 1]⟩ w) (e : Fin E) (a' : Fin A) (b' : Fin B) (n : Fin N) (a : Fin A) (b : Fin B) :
    d.resultIdx? (ix3 e a' b') idx = some (ix3 n a b) ↔
      (idx (ix2 e 0)).toInt = (n.val : Int) ∧ a' = a ∧ b' = b := by
  obtain ⟨uw, iw, sd, iv, wf⟩ := d
  dsimp only at huw hiw hsd hiv
  subst huw hiw hsd hiv
  rw [resultIdx?_eq_some]
  have w0 := window_inserted (⟨[1, 2], [0], [0], 1, wf⟩ : ScatterDims ⟨3, ![N, A, B]⟩ ⟨2, ![E, 1]⟩ ⟨3, ![E, A, B]⟩)
    (ix3 e a' b') 0 List.mem_cons_self
  have s1 := start_unaddressed (⟨[1, 2], [0], [0], 1, wf⟩ : ScatterDims ⟨3, ![N, A, B]⟩ ⟨2, ![E, 1]⟩ ⟨3, ![E, A, B]⟩)
    (ix3 e a' b') idx 1 (by simp)
  have s2 := start_unaddressed (⟨[1, 2], [0], [0], 1, wf⟩ : ScatterDims ⟨3, ![N, A, B]⟩ ⟨2, ![E, 1]⟩ ⟨3, ![E, A, B]⟩)
    (ix3 e a' b') idx 2 (by simp)
  constructor
  · intro h
    have h0 := h 0
    have h1 := h 1
    have h2 := h 2
    rw [s3_start0, w0, Nat.cast_zero, Int.add_zero] at h0
    rw [s1, s3_window1, Int.zero_add] at h1
    rw [s2, s3_window2, Int.zero_add] at h2
    exact ⟨h0, Fin.ext (by exact_mod_cast h1), Fin.ext (by exact_mod_cast h2)⟩
  · rintro ⟨h0, rfl, rfl⟩ k
    match k with
    | ⟨0, _⟩ =>
      show ScatterDims.start _ (ix3 e a' b') idx 0 + ((ScatterDims.window _ (ix3 e a' b') 0 : Nat) : Int) = _
      rw [s3_start0, w0, Nat.cast_zero, Int.add_zero]; exact h0
    | ⟨1, _⟩ =>
      show ScatterDims.start _ (ix3 e a' b') idx 1 + ((ScatterDims.window _ (ix3 e a' b') 1 : Nat) : Int) = _
      rw [s1, s3_window1, Int.zero_add]
    | ⟨2, _⟩ =>
      show ScatterDims.start _ (ix3 e a' b') idx 2 + ((ScatterDims.window _ (ix3 e a' b') 2 : Nat) : Int) = _
      rw [s2, s3_window2, Int.zero_add]

/-- `x.at[idx].add(upd)` over a rank-3 operand READ AT (n, a, b), at the exact instance. -/
theorem scatterAdd_rows3_apply (d : ScatterDims ⟨3, ![N, A, B]⟩ ⟨2, ![E, 1]⟩ ⟨3, ![E, A, B]⟩)
    (huw : d.updateWindowDims = [1, 2]) (hiw : d.insertedWindowDims = [0])
    (hsd : d.scatterDimsToOperandDims = [0]) (hiv : d.indexVectorDim = 1)
    (x : (⟨3, ![N, A, B]⟩ : Shape).Idx → EReal) (idx : IVec ⟨2, ![E, 1]⟩ w) (upd : (⟨3, ![E, A, B]⟩ : Shape).Idx → EReal)
    (n : Fin N) (a : Fin A) (b : Fin B) :
    Host.scatterAdd (F := Ideal) (φ := .f32) d x idx upd (ix3 n a b)
      = x (ix3 n a b) + ∑ e : Fin E, if (idx (ix2 e 0)).toInt = (n.val : Int) then upd (ix3 e a b) else 0 := by
  unfold Host.scatterAdd
  rw [Ideal.hostScatterAdd_def]
  unfold Ideal.hostScatterAdd
  congr 1
  rw [Finset.sum_filter, sum_idx3]
  refine Finset.sum_congr rfl fun e _ => ?_
  by_cases he : (idx (ix2 e 0)).toInt = (n.val : Int)
  · rw [if_pos he, Finset.sum_eq_single a]
    · rw [Finset.sum_eq_single b]
      · rw [if_pos ((s3_resultIdx?_iff d huw hiw hsd hiv idx e a b n a b).2 ⟨he, rfl, rfl⟩)]
      · intro b' _ hb'
        rw [if_neg fun h => hb' ((s3_resultIdx?_iff d huw hiw hsd hiv idx e a b' n a b).1 h).2.2]
      · intro h; exact absurd (Finset.mem_univ _) h
    · intro a' _ ha'
      refine Finset.sum_eq_zero fun b' _ => ?_
      rw [if_neg fun h => ha' ((s3_resultIdx?_iff d huw hiw hsd hiv idx e a' b' n a b).1 h).2.1]
    · intro h; exact absurd (Finset.mem_univ _) h
  · rw [if_neg he]
    refine Finset.sum_eq_zero fun a' _ => Finset.sum_eq_zero fun b' _ => ?_
    rw [if_neg fun h => he ((s3_resultIdx?_iff d huw hiw hsd hiv idx e a' b' n a b).1 h).1]

end Idealize.ShloMosaic.RowsGS

end
-- ==== Proof.KernelHostRead.lean ====
/-
  The launch's three input arrays read at an index, over the extended reals.

  With every index word in [0, 9999]: the clip leaves a word alone, so the gathered row of a projected table is the
  row of the edge's endpoint; a projection at (n, k) is Σ_d X[n,d]·W1ᵀ[d,k], and the row blocks of W1ᵀ are W1's
  columns 0–255, 256–511 and 512. So the pre-activation array at (e, k) is the specification's `pre`, the second
  window's array at (k, j) is W2[j,k], and the third's at (0, j) is b2[j].
-/
import proofs.«430021_j35691178230143_3_alg».proof.Proof.KernelHostTerm
import proofs.«430021_j35691178230143_3_alg».proof.Proof.Spec
import proofs.«430021_j35691178230143_3_alg».proof.Proof.IndexWords
import proofs.«430021_j35691178230143_3_alg».proof.Proof.LibPlainDot
import proofs.«430021_j35691178230143_3_alg».proof.Proof.LibGatherScatterRows
import Idealize.ShloMosaic.Lib.Pipeline.Value
import Idealize.ShloMosaic.Lib.ValueIdx

noncomputable section

namespace Cert.KernelIdeal.HostValue

open Cert.KernelIdeal Cert.KernelIdeal.Gen Idealize.ShloMosaic Idealize.ShloMosaic.ValueIdx Cert.EdgeMlp

variable (x0 : FVec Ideal S10000x256 .f32) (x1 : IVec S2x320000 32) (x2 : FVec Ideal S320000 .f32)
  (x3 : FVec Ideal S256x513 .f32) (x4 : FVec Ideal S256 .f32) (x5 : FVec Ideal S256x256 .f32) (x6 : FVec Ideal S256 .f32)

/-! ## The index words -/

theorem idxRow0_apply (e : Fin 320000) : idxRow0 x1 (ix1 e) = x1 (ix2 0 e) := by
  unfold idxRow0
  rw [shapeCast_apply _ shapeCasts_S1x320000_S320000 (ix1 e) (ix2 (0 : Fin 1) e)
    (by rewrite [Shape.rowMajor_val_two, Shape.rowMajor_val_one]; show 0 * 320000 + e.val = e.val; omega)]
  exact extractStridedSlice_apply ![0, 0] x1 slices_S2x320000_S1x320000_0_0 (ix2 (0 : Fin 1) e) (ix2 0 e) (fun a => match a with
    | ⟨0, _⟩ => by show (0 : Nat) = 0 + 0; rfl
    | ⟨1, _⟩ => by show e.val = 0 + e.val; omega)

theorem idxRow1_apply (e : Fin 320000) : idxRow1 x1 (ix1 e) = x1 (ix2 1 e) := by
  unfold idxRow1
  rw [shapeCast_apply _ shapeCasts_S1x320000_S320000 (ix1 e) (ix2 (0 : Fin 1) e)
    (by rewrite [Shape.rowMajor_val_two, Shape.rowMajor_val_one]; show 0 * 320000 + e.val = e.val; omega)]
  exact extractStridedSlice_apply ![1, 0] x1 slices_S2x320000_S1x320000_1_0 (ix2 (0 : Fin 1) e) (ix2 1 e) (fun a => match a with
    | ⟨0, _⟩ => by show (1 : Nat) = 1 + 0; rfl
    | ⟨1, _⟩ => by show e.val = 0 + e.val; omega)

theorem clip_apply (w : IVec S320000 32) (e : Fin 320000) :
    clip w (ix1 e) = IntOp.minsi 9999#32 (IntOp.maxsi 0#32 (w (ix1 e))) := rfl

/-! ## The gathered rows -/

/-- The gather of a table's rows at (e, k), the edge's word naming row `n`. -/
theorem take_apply (p : FVec Ideal S10000x256 .f32) (w : IVec S320000 32) (e : Fin 320000) (k : Fin 256) (n : Fin 10000)
    (hn : (w (ix1 e)).toInt = (n.val : Int)) : take p w (ix2 e k) = p (ix2 n k) := by
  unfold take
  refine RowsGS.gather_rows2_apply _ rfl rfl rfl rfl rfl rfl rfl p _ e k n ?_
  rw [broadcastInDim_apply _ bcast_S320000_S320000x1_0 w (ix2 e (0 : Fin 1)) (ix1 e) (fun a => match a with
    | ⟨0, _⟩ => by show e.val = if (320000 : Nat) = 1 then 0 else e.val; rw [if_neg (by decide)])]
  exact hn

/-! ## The projections and W1's blocks -/

theorem proj_apply (w : FVec Ideal S256x256 .f32) (n : Fin 10000) (k : Fin 256) :
    proj x0 w (ix2 n k) = ∑ d : Fin 256, x0 (ix2 n d) * w (ix2 d k) := by
  unfold proj
  exact PlainDot.dotGeneral_apply _ rfl rfl rfl rfl rfl rfl _ x0 w n k

theorem w1T_apply (r : Fin 513) (k : Fin 256) : w1T x3 (ix2 r k) = x3 (ix2 k r) := by
  unfold w1T
  exact transpose_apply [1, 0] x3 transposes_S256x513_S513x256_1_0 (ix2 r k) (ix2 k r) (fun b => match b with
    | ⟨0, _⟩ => rfl
    | ⟨1, _⟩ => rfl)

theorem w1s_apply (d k : Fin 256) : w1s x3 (ix2 d k) = x3 (ix2 k (colS d)) := by
  unfold w1s
  rw [extractStridedSlice_apply ![0, 0] (w1T x3) slices_S513x256_S256x256_0_0 (ix2 d k) (ix2 (colS d) k) (fun a => match a with
    | ⟨0, _⟩ => by show d.val = 0 + d.val; omega
    | ⟨1, _⟩ => by show k.val = 0 + k.val; omega)]
  exact w1T_apply x3 (colS d) k

theorem w1r_apply (d k : Fin 256) : w1r x3 (ix2 d k) = x3 (ix2 k (colR d)) := by
  unfold w1r
  rw [extractStridedSlice_apply ![256, 0] (w1T x3) slices_S513x256_S256x256_256_0 (ix2 d k) (ix2 (colR d) k) (fun a => match a with
    | ⟨0, _⟩ => by show 256 + d.val = 256 + d.val; rfl
    | ⟨1, _⟩ => by show k.val = 0 + k.val; omega)]
  exact w1T_apply x3 (colR d) k

theorem w1e_apply (k : Fin 256) : w1e x3 (ix2 (0 : Fin 1) k) = x3 (ix2 k colE) := by
  unfold w1e
  rw [extractStridedSlice_apply ![512, 0] (w1T x3) slices_S513x256_S1x256_512_0 (ix2 (0 : Fin 1) k) (ix2 colE k) (fun a => match a with
    | ⟨0, _⟩ => by show (512 : Nat) = 512 + 0; rfl
    | ⟨1, _⟩ => by show k.val = 0 + k.val; omega)]
  exact w1T_apply x3 colE k

/-! ## The broadcasts -/

/-- A [320000] vector as a column, then along the 256 columns: at (e, k) the vector at `e`. -/
theorem bcastLen_apply (e : Fin 320000) (k : Fin 256) :
    broadcastInDim S320000x256 ![0, 1] bcast_S320000x1_S320000x256_0_1
      (broadcastInDim S320000x1 ![0] bcast_S320000_S320000x1_0 x2) (ix2 e k) = x2 (ix1 e) := by
  rw [broadcastInDim_apply _ bcast_S320000x1_S320000x256_0_1 _ (ix2 e k) (ix2 e (0 : Fin 1)) (fun a => match a with
    | ⟨0, _⟩ => by show e.val = if (320000 : Nat) = 1 then 0 else e.val; rw [if_neg (by decide)]
    | ⟨1, _⟩ => by show (0 : Nat) = if (1 : Nat) = 1 then 0 else k.val; rw [if_pos rfl])]
  exact broadcastInDim_apply _ bcast_S320000_S320000x1_0 x2 (ix2 e (0 : Fin 1)) (ix1 e) (fun a => match a with
    | ⟨0, _⟩ => by show e.val = if (320000 : Nat) = 1 then 0 else e.val; rw [if_neg (by decide)])

/-- A [1, 256] row down the 320000 rows: at (e, k) the row at (0, k). -/
theorem bcastRow_apply (v : FVec Ideal S1x256 .f32) (e : Fin 320000) (k : Fin 256) :
    broadcastInDim S320000x256 ![0, 1] bcast_S1x256_S320000x256_0_1 v (ix2 e k) = v (ix2 (0 : Fin 1) k) :=
  broadcastInDim_apply _ bcast_S1x256_S320000x256_0_1 v (ix2 e k) (ix2 (0 : Fin 1) k) (fun a => match a with
    | ⟨0, _⟩ => by show (0 : Nat) = if (1 : Nat) = 1 then 0 else e.val; rw [if_pos rfl]
    | ⟨1, _⟩ => by show k.val = if (256 : Nat) = 1 then 0 else k.val; rw [if_neg (by decide)])

/-- A [256] vector as a row: at (0, k) the vector at `k`. -/
theorem asRow_apply (v : FVec Ideal S256 .f32) (k : Fin 256) :
    broadcastInDim S1x256 ![1] bcast_S256_S1x256_1 v (ix2 (0 : Fin 1) k) = v (ix1 k) :=
  broadcastInDim_apply _ bcast_S256_S1x256_1 v (ix2 (0 : Fin 1) k) (ix1 k) (fun a => match a with
    | ⟨0, _⟩ => by show k.val = if (256 : Nat) = 1 then 0 else k.val; rw [if_neg (by decide)])

/-! ## The three arrays -/

/-- The pre-activation array at (e, k) is the specification's. -/
theorem hpre_apply (hin : ∀ i, 0 ≤ (x1 i).toInt ∧ (x1 i).toInt < 10000) (e : Fin 320000) (k : Fin 256) :
    hpre x0 x1 x2 x3 x4 (ix2 e k) = pre x0 x1 x2 x3 x4 e k := by
  have hs : (clip (idxRow0 x1) (ix1 e)).toInt = ((sender x1 e).val : Int) := by
    rw [clip_apply, idxRow0_apply, clip_eq (hin _).1 (hin _).2]
    exact node_val (hin _).1 (hin _).2
  have hr : (clip (idxRow1 x1) (ix1 e)).toInt = ((receiver x1 e).val : Int) := by
    rw [clip_apply, idxRow1_apply, clip_eq (hin _).1 (hin _).2]
    exact node_val (hin _).1 (hin _).2
  unfold hpre pre
  rw [truncf_apply, addf_apply, addf_apply, addf_apply, mulf_apply,
    take_apply _ _ e k (sender x1 e) hs, take_apply _ _ e k (receiver x1 e) hr, proj_apply, proj_apply,
    bcastLen_apply, bcastRow_apply, bcastRow_apply, w1e_apply, asRow_apply]
  simp only [w1s_apply, w1r_apply]

/-- The second window's array at (k, j) is W2[j, k]. -/
theorem w2T_apply (k j : Fin 256) : w2T x5 (ix2 k j) = x5 (ix2 j k) := by
  unfold w2T
  rw [truncf_apply]
  exact transpose_apply [1, 0] x5 transposes_S256x256_S256x256_1_0 (ix2 k j) (ix2 j k) (fun b => match b with
    | ⟨0, _⟩ => rfl
    | ⟨1, _⟩ => rfl)

/-- The third window's array at (0, j) is b2[j]. -/
theorem b2Row_apply (j : Fin 256) : b2Row x6 (ix2 (0 : Fin 1) j) = x6 (ix1 j) := by
  unfold b2Row
  exact asRow_apply x6 j

end Cert.KernelIdeal.HostValue

end
-- ==== Proof.KernelValue.lean ====
/-
  The kernel's result array is the specification's function.

  The grid has 50 points; point `t` stages rows 6400·t … 6400·t + 6399 of the pre-activation array, the whole of W2ᵀ
  and the row of b2, and writes back rows 6400·t … 6400·t + 6399 of the result. The body's one store holds, at the
  block's (p, q), Σ_k silu(h[p,k])·w[k,q] + b[0,q]: a matrix product into a zero accumulator is the plain sum, the
  widening and narrowing of formats are the identity, and the logistic operation is the logistic function. Reading the
  three blocks through their windows gives the specification's value at row 6400·t + p. The 50 blocks cover the
  array (row r lies in block r / 6400), so the array after the run is the specification's function.
-/
import proofs.«430021_j35691178230143_3_alg».proof.Proof.Gen.KernelIdeal.Value
import proofs.«430021_j35691178230143_3_alg».proof.Proof.KernelHostRead
import Idealize.ShloMosaic.Lib.Pipeline.Value

noncomputable section

namespace Cert.KernelIdeal.OutValue

open Cert.KernelIdeal Cert.KernelIdeal.Gen Idealize.ShloMosaic Idealize.ShloMosaic.TcCoe Idealize.SL.Sem
open Idealize.ShloMosaic.ValueIdx Cert.EdgeMlp Cert.KernelIdeal.HostValue
open Idealize.ShloMosaic.Pipeline (Dat)

/-! ## The body's store at an index of the block -/

theorem pay_apply (v0 : Vec Ideal S6400x256 .bf16) (v6 : Vec Ideal S256x256 .bf16) (v9 : Vec Ideal S1x256 .f32)
    (p : Fin 6400) (q : Fin 256) :
    k0_pay1 (F := Ideal) v0 v6 v9 (ix2 p q)
      = (∑ k : Fin 256, silu (v0 (ix2 p k)) * v6 (ix2 k q)) + v9 (ix2 (0 : Fin 1) q) := by
  unfold k0_pay1
  rw [addf_apply, PlainDot.matmul_zero_apply _ rfl rfl rfl rfl rfl rfl none _ _ p q,
    broadcastTo_apply _ broadcasts_S1x256_S6400x256 (ix2 p q) (ix2 (0 : Fin 1) q) (fun a => match a with
      | ⟨0, _⟩ => by show (0 : Nat) = if (1 : Nat) = 1 then 0 else _; rw [if_pos rfl]
      | ⟨1, _⟩ => by show q.val = if (256 : Nat) = 1 then 0 else q.val; rw [if_neg (by decide)])]
  simp only [shapeCast_self]
  rfl

/-! ## The blocks -/

variable (m : (ℓ : Loc nD τ sig) → Buf (Elt Ideal) ℓ) (ρ : Dev nD → PrngReg)

/-- The result array the specification names, of the arguments as launched. -/
abbrev result (c : Dev nD) : Buf (Elt Ideal) ((c : Thread nD τ).loc main_v27) :=
  out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

theorem hz : (![0, 0] : Fin 2 → Nat) = fun _ => 0 := funext fun a => by fin_cases a <;> rfl

/-- The printed index maps over the grid: the pre-activation and the result move one block of rows per point; the
    other two windows stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (hin : ∀ (c : Dev nD) (i : S2x320000.Idx), 0 ≤ (m ((c : Thread nD τ).loc main_arg1) i).toInt
  ∧ (m ((c : Thread nD τ).loc main_arg1) i).toInt < 10000)
include hin

/-- What point `t` writes back is block `t` of the specification's array. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero hz]
  simp only [View.ld_unit_zero (S := S6400x256) hz, View.ld_unit_zero (S := S256x256) hz, View.ld_unit_zero (S := S1x256) hz]
  obtain ⟨e00, e01, e10, e11, e20, e21, e30, e31⟩ := idx_facts t
  have ht : t.val < 50 := Nat.lt_of_lt_of_eq t.isLt (show cfg0.N = 50 from N_0)
  funext j
  show k0_pay1 (F := Ideal) (iblk m c 0 t) (iblk m c 1 t) (iblk m c 2 t) j = result m c (((cfg0.win 3).blk t).view.emb j)
  obtain ⟨p, q, rfl⟩ : ∃ (p : Fin 6400) (q : Fin 256), j = ix2 p q := ⟨j 0, j 1, eq_ix2 (n0 := 6400) (n1 := 256) j⟩
  refine (pay_apply (iblk m c 0 t) (iblk m c 1 t) (iblk m c 2 t) p q).trans ?_
  have hp := p.isLt
  have hrow : t.val * 6400 + p.val < 320000 := by omega
  -- the three blocks, read where the windows' rectangles say
  have hA : ∀ k : Fin 256, iblk m c 0 t (ix2 p k)
      = pre (m ((c : Thread nD τ).loc main_arg0)) (m ((c : Thread nD τ).loc main_arg1)) (m ((c : Thread nD τ).loc main_arg2))
          (m ((c : Thread nD τ).loc main_arg3)) (m ((c : Thread nD τ).loc main_arg4)) ⟨t.val * 6400 + p.val, hrow⟩ k := fun k => by
    show V m c main_v23 (((cfg0.win 0).blk t).view.emb (ix2 p k)) = _
    have he : ((cfg0.win 0).blk t).view.emb (ix2 p k) = ix2 (⟨t.val * 6400 + p.val, hrow⟩ : Fin 320000) k :=
      funext fun a => Fin.ext (by
        match a with
        | ⟨0, _⟩ => show win0_0.index t (0 : Fin 2) * 6400 + 1 * p.val = t.val * 6400 + p.val; rw [e00]; omega
        | ⟨1, _⟩ => show win0_0.index t (1 : Fin 2) * 256 + 1 * k.val = k.val; rw [e01]; omega)
    rw [he, V_hpre]
    exact hpre_apply _ _ _ _ _ (hin c) _ k
  have hB : ∀ k : Fin 256, iblk m c 1 t (ix2 k q) = m ((c : Thread nD τ).loc main_arg5) (ix2 q k) := fun k => by
    show V m c main_v25 (((cfg0.win 1).blk t).view.emb (ix2 k q)) = _
    have he : ((cfg0.win 1).blk t).view.emb (ix2 k q) = ix2 k q :=
      funext fun a => Fin.ext (by
        match a with
        | ⟨0, _⟩ => show win0_1.index t (0 : Fin 2) * 256 + 1 * k.val = k.val; rw [e10]; omega
        | ⟨1, _⟩ => show win0_1.index t (1 : Fin 2) * 256 + 1 * q.val = q.val; rw [e11]; omega)
    rw [he, V_w2T]
    exact w2T_apply _ k q
  have hC : iblk m c 2 t (ix2 (0 : Fin 1) q) = m ((c : Thread nD τ).loc main_arg6) (ix1 q) := by
    show V m c main_v26 (((cfg0.win 2).blk t).view.emb (ix2 (0 : Fin 1) q)) = _
    have he : ((cfg0.win 2).blk t).view.emb (ix2 (0 : Fin 1) q) = ix2 (0 : Fin 1) q :=
      funext fun a => Fin.ext (by
        match a with
        | ⟨0, _⟩ => show win0_2.index t (0 : Fin 2) * 1 + 1 * 0 = 0; rw [e20]
        | ⟨1, _⟩ => show win0_2.index t (1 : Fin 2) * 256 + 1 * q.val = q.val; rw [e21]; omega)
    rw [he, V_b2Row]
    exact b2Row_apply _ q
  have hO : ((cfg0.win 3).blk t).view.emb (ix2 p q) = ix2 (⟨t.val * 6400 + p.val, hrow⟩ : Fin 320000) q :=
    funext fun a => Fin.ext (by
      match a with
      | ⟨0, _⟩ => show win0_3.index t (0 : Fin 2) * 6400 + 1 * p.val = t.val * 6400 + p.val; rw [e30]; omega
      | ⟨1, _⟩ => show win0_3.index t (1 : Fin 2) * 256 + 1 * q.val = q.val; rw [e31]; omega)
  rw [hO, hC]
  simp only [hA, hB]
  rfl

omit hin in
/-- An index of the array is in point `t`'s block iff each coordinate is in the block's range on its axis. -/
theorem mem_blk (t : Fin cfg0.N) (i : S320000x256.Idx) :
    i ∈ ((cfg0.win 3).blk t).view.set ↔ ∀ a : Fin 2, win0_3.index t a * S6400x256.size a ≤ (i a).val
      ∧ (i a).val < win0_3.index t a * S6400x256.size a + S6400x256.size a := by
  show i ∈ ((View.whole main_v27).slice (win0_3.rect t)).set ↔ _
  rw [View.set_slice_whole, Rect.mem_set_unit]
  exact Iff.rfl

omit hin in
/-- Every index of the array lies in some point's block: row `r` in block `r / 6400`. -/
theorem cover (i : S320000x256.Idx) : ∃ t : Fin cfg0.N, (cfg0.win 3).flush t = true ∧ i ∈ ((cfg0.win 3).blk t).view.set := by
  have hi0 : (i 0).val < 320000 := (i 0).isLt
  have hi1 : (i 1).val < 256 := (i 1).isLt
  have hN : cfg0.N = 50 := N_0
  let t : Fin cfg0.N := ⟨(i 0).val / 6400, by rw [hN]; omega⟩
  obtain ⟨-, -, -, -, -, -, e30, e31⟩ := idx_facts t
  refine ⟨t, flush0_3 t, ?_⟩
  rw [mem_blk]
  intro a
  match a with
  | ⟨0, _⟩ =>
    show win0_3.index t (0 : Fin 2) * 6400 ≤ (i 0).val ∧ (i 0).val < win0_3.index t (0 : Fin 2) * 6400 + 6400
    rw [e30]
    show (i 0).val / 6400 * 6400 ≤ (i 0).val ∧ (i 0).val < (i 0).val / 6400 * 6400 + 6400
    omega
  | ⟨1, _⟩ =>
    show win0_3.index t (1 : Fin 2) * 256 ≤ (i 1).val ∧ (i 1).val < win0_3.index t (1 : Fin 2) * 256 + 256
    rw [e31]
    omega

/-- The result array after the run. -/
theorem final (c : Dev nD) : (dats m 0 c).arrAt 3 cfg0.N = result m c :=
  (dats m 0 c).arrAt_eq_of_cover 3 (result m c) (fun t _ => flushed_eq m hin c t) cover

/-- The kernel's run, with the result array at the specification's function and the arguments unchanged. -/
theorem run : θ_run defs (onTc (τ := τ) (main (F := Ideal))) ⟨m, fun _ => 0, ρ⟩ fun r => ∀ c : Dev nD,
      r.2.mem ((c : Thread nD τ).loc main_v27) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m hin c), (h c).2⟩) (Value.run_blocks m ρ)

end Cert.KernelIdeal.OutValue

end
-- ==== Proof.RefValue.lean ====
/-
  The reference's result is the specification's function.

  The reference gathers the sender's and the receiver's node rows, joins them with the edge length into a
  [320000, 513] array, contracts it with W1ᵀ, adds b1, applies silu (spelt `x · (1 / (1 + e^(−x)))`, which is the
  logistic function's definition at the extended reals), contracts with W2ᵀ and adds b2. With every index word in
  [0, 9999] numpy's wrap of a negative index does nothing, so the gathered row is the endpoint's. The 513-term sum
  splits into the sender's 256 columns, the receiver's 256 and the edge-length column (`sum_split`), each read
  through its piece of the concatenation.
-/
import proofs.«430021_j35691178230143_3_alg».proof.Proof.Gen.ReferenceIdeal.Read
import proofs.«430021_j35691178230143_3_alg».proof.Proof.Spec
import proofs.«430021_j35691178230143_3_alg».proof.Proof.IndexWords
import proofs.«430021_j35691178230143_3_alg».proof.Proof.LibGatherScatterRows
import Idealize.ShloMosaic.Lib.Pipeline.Value
import Idealize.ShloMosaic.Lib.ValueIdx
import Idealize.ShloMosaic.PureOps.IdealRules

noncomputable section

namespace Cert.ReferenceIdeal.RefValue

open Cert.ReferenceIdeal Cert.ReferenceIdeal.Gen Cert.ReferenceIdeal.Read Idealize.ShloMosaic Idealize.ShloMosaic.ValueIdx
open Cert.EdgeMlp

variable (x0 : (⟨S10000x256, .f32⟩ : BufTy).Contents (Elt Ideal)) (x1 : (⟨S2x320000, .i32⟩ : BufTy).Contents (Elt Ideal))
  (x2 : (⟨S320000, .f32⟩ : BufTy).Contents (Elt Ideal)) (x3 : (⟨S256x513, .f32⟩ : BufTy).Contents (Elt Ideal))
  (x4 : (⟨S256, .f32⟩ : BufTy).Contents (Elt Ideal)) (x5 : (⟨S256x256, .f32⟩ : BufTy).Contents (Elt Ideal))
  (x6 : (⟨S256, .f32⟩ : BufTy).Contents (Elt Ideal))

/-! ## The index words -/

theorem row0_apply (e : Fin 320000) : val_main_v1 (F := Ideal) x1 (ix1 e) = x1 (ix2 0 e) := by
  rw [val_main_v1_apply, val_main_v0_apply]
  refine congrArg x1 (funext fun a => Fin.ext ?_)
  match a with
  | ⟨0, _⟩ => rfl
  | ⟨1, _⟩ => exact Nat.mod_eq_of_lt e.isLt

theorem row1_apply (e : Fin 320000) : val_main_v3 (F := Ideal) x1 (ix1 e) = x1 (ix2 1 e) := by
  rw [val_main_v3_apply, val_main_v2_apply]
  refine congrArg x1 (funext fun a => Fin.ext ?_)
  match a with
  | ⟨0, _⟩ => rfl
  | ⟨1, _⟩ => exact Nat.mod_eq_of_lt e.isLt

/-- The sender's start index: the wrap of negatives leaves a non-negative word alone. -/
theorem start0_apply (e : Fin 320000) (h0 : 0 ≤ (x1 (ix2 0 e)).toInt) :
    val_main_v9 (F := Ideal) x1 (ix2 e (0 : Fin 1)) = x1 (ix2 0 e) := by
  rw [val_main_v9_apply]
  have hi : idx_main_v9 (ix2 e (0 : Fin 1)) = ix1 e := funext fun a => by
    match a with
    | ⟨0, _⟩ => rfl
  rw [hi, val_main_v8_apply, val_main_v5_apply, row0_apply, val_main_v4_apply, val_main_c_apply]
  exact wrap_eq h0 _

theorem start1_apply (e : Fin 320000) (h0 : 0 ≤ (x1 (ix2 1 e)).toInt) :
    val_main_v16 (F := Ideal) x1 (ix2 e (0 : Fin 1)) = x1 (ix2 1 e) := by
  rw [val_main_v16_apply]
  have hi : idx_main_v16 (ix2 e (0 : Fin 1)) = ix1 e := funext fun a => by
    match a with
    | ⟨0, _⟩ => rfl
  rw [hi, val_main_v15_apply, val_main_v12_apply, row1_apply, val_main_v11_apply, val_main_c_1_apply]
  exact wrap_eq h0 _

/-! ## The gathered rows and their concatenation with the edge length -/

variable (hin : ∀ i, 0 ≤ (x1 i).toInt ∧ (x1 i).toInt < 10000)
include hin

theorem gatherS_apply (e : Fin 320000) (d : Fin 256) :
    val_main_v10 (F := Ideal) x0 x1 (ix2 e d) = x0 (ix2 (sender x1 e) d) := by
  unfold val_main_v10
  refine RowsGS.gather_rows2_apply _ rfl rfl rfl rfl rfl rfl rfl x0 _ e d (sender x1 e) ?_
  rw [start0_apply x1 e (hin _).1]
  exact node_val (hin _).1 (hin _).2

theorem gatherR_apply (e : Fin 320000) (d : Fin 256) :
    val_main_v17 (F := Ideal) x0 x1 (ix2 e d) = x0 (ix2 (receiver x1 e) d) := by
  unfold val_main_v17
  refine RowsGS.gather_rows2_apply _ rfl rfl rfl rfl rfl rfl rfl x0 _ e d (receiver x1 e) ?_
  rw [start1_apply x1 e (hin _).1]
  exact node_val (hin _).1 (hin _).2

omit hin in
theorem lenCol_apply (e : Fin 320000) : val_main_v18 (F := Ideal) x2 (ix2 e (0 : Fin 1)) = x2 (ix1 e) := by
  rw [val_main_v18_apply]
  refine congrArg x2 (funext fun a => ?_)
  match a with
  | ⟨0, _⟩ => rfl

/-- The joined row of edge `e` at one of the sender's columns. -/
theorem msgS_apply (e : Fin 320000) (d : Fin 256) :
    val_main_v19 (F := Ideal) x0 x1 x2 (ix2 e (colS d)) = x0 (ix2 (sender x1 e) d) := by
  unfold val_main_v19
  rw [concatenate_apply_piece (t := S320000x513) (1 : Fin S320000x513.rank) [⟨S320000x256, val_main_v10 (F := Ideal) x0 x1⟩, ⟨S320000x256, val_main_v17 (F := Ideal) x0 x1⟩, ⟨S320000x1, val_main_v18 (F := Ideal) x2⟩] concatenates_S320000x256_S320000x256_S320000x1_S320000x513_d1 (ix2 e (colS d))
    0 (by simp) S320000x256 (val_main_v10 (F := Ideal) x0 x1) rfl rfl 0 rfl (ix2 e d)
    (fun b hb => by
      match b with
      | ⟨0, _⟩ => rfl
      | ⟨1, _⟩ => exact absurd rfl hb)
    (by show 0 + d.val = d.val; omega)]
  exact gatherS_apply x0 x1 hin e d

/-- … at one of the receiver's columns. -/
theorem msgR_apply (e : Fin 320000) (d : Fin 256) :
    val_main_v19 (F := Ideal) x0 x1 x2 (ix2 e (colR d)) = x0 (ix2 (receiver x1 e) d) := by
  unfold val_main_v19
  rw [concatenate_apply_piece (t := S320000x513) (1 : Fin S320000x513.rank) [⟨S320000x256, val_main_v10 (F := Ideal) x0 x1⟩, ⟨S320000x256, val_main_v17 (F := Ideal) x0 x1⟩, ⟨S320000x1, val_main_v18 (F := Ideal) x2⟩] concatenates_S320000x256_S320000x256_S320000x1_S320000x513_d1 (ix2 e (colR d))
    1 (by simp) S320000x256 (val_main_v17 (F := Ideal) x0 x1) rfl rfl 256 rfl (ix2 e d)
    (fun b hb => by
      match b with
      | ⟨0, _⟩ => rfl
      | ⟨1, _⟩ => exact absurd rfl hb)
    (by show 256 + d.val = 256 + d.val; rfl)]
  exact gatherR_apply x0 x1 hin e d

omit hin in
/-- … at the edge-length column. -/
theorem msgE_apply (e : Fin 320000) :
    val_main_v19 (F := Ideal) x0 x1 x2 (ix2 e colE) = x2 (ix1 e) := by
  unfold val_main_v19
  rw [concatenate_apply_piece (t := S320000x513) (1 : Fin S320000x513.rank) [⟨S320000x256, val_main_v10 (F := Ideal) x0 x1⟩, ⟨S320000x256, val_main_v17 (F := Ideal) x0 x1⟩, ⟨S320000x1, val_main_v18 (F := Ideal) x2⟩] concatenates_S320000x256_S320000x256_S320000x1_S320000x513_d1 (ix2 e colE)
    2 (by simp) S320000x1 (val_main_v18 (F := Ideal) x2) rfl rfl 512 rfl (ix2 e (0 : Fin 1))
    (fun b hb => by
      match b with
      | ⟨0, _⟩ => rfl
      | ⟨1, _⟩ => exact absurd rfl hb)
    (by show 512 + 0 = 512; rfl)]
  exact lenCol_apply x2 e

/-! ## The two layers -/

/-- The reference's pre-activation at (e, k) is the specification's. -/
theorem pre_apply (e : Fin 320000) (k : Fin 256) :
    val_main_v24 (F := Ideal) x0 x1 x2 x3 x4 (ix2 e k) = pre x0 x1 x2 x3 x4 e k := by
  rw [val_main_v24_apply, val_main_v21_apply, val_main_v23_apply, val_main_v22_apply]
  have hl : ∀ c : Fin 513, lidx_main_v21 (ix2 e k) c = ix2 e c := fun c => funext fun a => by
    match a with
    | ⟨0, _⟩ => rfl
    | ⟨1, _⟩ => rfl
  have hr : ∀ c : Fin 513, val_main_v20 (F := Ideal) x3 (ridx_main_v21 (ix2 e k) c) = x3 (ix2 k c) := fun c => by
    rw [val_main_v20_apply]
    refine congrArg x3 (funext fun a => ?_)
    match a with
    | ⟨0, _⟩ => rfl
    | ⟨1, _⟩ => rfl
  have hb : x4 (idx_main_v22 (idx_main_v23 (ix2 e k))) = x4 (ix1 k) := by
    refine congrArg x4 (funext fun a => ?_)
    match a with
    | ⟨0, _⟩ => rfl
  simp only [hl, hr]
  rw [hb, sum_split, msgE_apply x0 x1 x2 e]
  simp only [msgS_apply x0 x1 x2 hin e, msgR_apply x0 x1 x2 hin e]
  rfl

omit hin in
/-- The reference's spelling of silu is the logistic function's definition. -/
theorem silu_eq (x : EReal) :
    FloatOps.mulf (F := Ideal) (φ := .f32) x (FloatOps.hostDivf (F := Ideal) (φ := .f32) (FloatOps.ofBits (F := Ideal) .f32 0x3F800000#32)
      (FloatOps.addf (F := Ideal) (φ := .f32) (FloatOps.ofBits (F := Ideal) .f32 0x3F800000#32)
        (FloatOps.hostUnary (F := Ideal) (φ := .f32) .exp (FloatOps.hostNegf (F := Ideal) (φ := .f32) x)))) = silu x := by
  have h1 : FloatOps.ofBits (F := Ideal) .f32 0x3F800000#32 = (1 : EReal) := IdealRules.sign_bit.ideal_onePat .f32
  rw [h1]
  rfl

/-- The hidden state at (e, k). -/
theorem hidden_apply (e : Fin 320000) (k : Fin 256) :
    val_main_v25 (F := Ideal) x0 x1 x2 x3 x4 (ix2 e k) = silu (pre x0 x1 x2 x3 x4 e k) := by
  rw [val_main_v25_apply, val_main_call0_v5_apply, val_main_call0_v3_apply, val_main_call0_v1_apply, val_main_call0_v0_apply,
    val_main_call0_v4_apply, val_main_call0_v2_apply, val_main_call0_cst_0_apply, val_main_call0_cst_apply,
    pre_apply x0 x1 x2 x3 x4 hin e k]
  exact silu_eq _

/-- The reference's result is the specification's. -/
theorem result_eq : val_main_v30 (F := Ideal) x0 x1 x2 x3 x4 x5 x6 = out x0 x1 x2 x3 x4 x5 x6 := by
  funext i
  obtain ⟨e, j, rfl⟩ : ∃ (e : Fin 320000) (j : Fin 256), i = ix2 e j := ⟨i 0, i 1, eq_ix2 i⟩
  rw [val_main_v30_apply, val_main_v27_apply, val_main_v29_apply, val_main_v28_apply]
  have hl : ∀ k : Fin 256, lidx_main_v27 (ix2 e j) k = ix2 e k := fun k => funext fun a => by
    match a with
    | ⟨0, _⟩ => rfl
    | ⟨1, _⟩ => rfl
  have hr : ∀ k : Fin 256, val_main_v26 (F := Ideal) x5 (ridx_main_v27 (ix2 e j) k) = x5 (ix2 j k) := fun k => by
    rw [val_main_v26_apply]
    refine congrArg x5 (funext fun a => ?_)
    match a with
    | ⟨0, _⟩ => rfl
    | ⟨1, _⟩ => rfl
  have hb : x6 (idx_main_v28 (idx_main_v29 (ix2 e j))) = x6 (ix1 j) := by
    refine congrArg x6 (funext fun a => ?_)
    match a with
    | ⟨0, _⟩ => rfl
  simp only [hl, hr, hidden_apply x0 x1 x2 x3 x4 hin e]
  rw [hb]
  rfl

end Cert.ReferenceIdeal.RefValue

end
-- ==== Proof.PreDecode.lean ====
/-
  The index range, read out of the precondition.

  The precondition is the conjunction of six finiteness tests and, last, `all((idx ≥ 0) & (idx < 10000))` over the
  index array: a reduction by `and` from 1 that came out 1 met 1 at every index, and the two signed comparisons being 1
  say that the word, read signed, is in [0, 9999].
-/
import proofs.«430021_j35691178230143_3_alg».proof.Pre_finite_inputs
import proofs.«430021_j35691178230143_3_alg».proof.Proof.Gen.Pre_finite_inputs
import proofs.«430021_j35691178230143_3_alg».proof.Proof.IndexWords
import Idealize.ShloMosaic.Lib.ReduceAll
import Idealize.ShloMosaic.Lib.ValueIdx

namespace Cert.Pre_finite_inputs.Decode

open Cert.Pre_finite_inputs Idealize.ShloMosaic Cert.EdgeMlp

instance : Subsingleton S_.Idx := ⟨fun a b => funext fun d => d.elim0⟩

variable {F : FTy → Type} [FloatOps F]

/-- Every index word of an input that meets the precondition is in [0, 9999]. -/
theorem idx_range (x0 : FVec F S10000x256 .f32) (x1 : IVec S2x320000 32) (x2 : FVec F S320000 .f32) (x3 : FVec F S256x513 .f32)
    (x4 : FVec F S256 .f32) (x5 : FVec F S256x256 .f32) (x6 : FVec F S256 .f32)
    (h : fn (F := F) x0 x1 x2 x3 x4 x5 x6 = fun _ => 1#1) (i : S2x320000.Idx) :
    0 ≤ (x1 i).toInt ∧ (x1 i).toInt < 10000 := by
  have h0 := congrFun h ValueIdx.ix0
  dsimp only [fn, fn_part1, fn_part2] at h0
  have hall := (IntOp.andi_eq_one.1 h0).2
  have hi := Host.reduce_andi_all _ _ _ _ _ hall i
  have hi' := IntOp.andi_eq_one.1 hi
  exact ⟨(sge_zero_iff (x1 i)).1 hi'.1, (slt_tenk_iff (x1 i)).1 hi'.2⟩

end Cert.Pre_finite_inputs.Decode
-- ==== Proof.lean ====
/-
  The edge-state network: a kernel against its jnp reference, over the extended reals.

  Both programs map node scalars X [10000, 256], an edge list [2, 320000], edge lengths [320000] and two dense layers
  (W1 [256, 513], b1; W2 [256, 256], b2) to, for every edge e = (s, r) and output unit j,
      Σ_k silu(Σ_{d<256} X[s,d]·W1[k,d] + Σ_{d<256} X[r,d]·W1[k,256+d] + len[e]·W1[k,512] + b1[k]) · W2[j,k] + b2[j].
  The reference gathers X[s,:] and X[r,:], joins them with len[e] into 513 columns and contracts with W1ᵀ. The kernel's
  program contracts X with the two 256-row blocks of W1ᵀ over the 10000 nodes first, gathers the projected rows, adds
  len[e] times the last row of W1ᵀ and b1 on the host, and launches, over 50 blocks of 6400 edges, silu, the second
  contraction and the bias. The two agree because a gather of rows commutes with a contraction along the other axis
  (both sides are read index by index, so this is the equality of the summands) and because the 513-term sum is the sum
  of its three stretches; changes of float format are the identity over the extended reals, and the logistic operation
  is 1 / (1 + e^(−x)), which is how the reference spells it.

  The statement is over edge lists whose entries are node numbers, 0 ≤ idx < 10000: the kernel clips an index into
  that range where numpy's indexing wraps a negative one, and the two differ on −9999 … −1.

  The frames are the generated ones (the reference's is its generated run with the result dropped); the idealization
  rewrote nothing, so the preservation claim is trivially true.
-/
import proofs.«430021_j35691178230143_3_alg».proof.Defs
import proofs.«430021_j35691178230143_3_alg».proof.Proof.Gen.Kernel
import proofs.«430021_j35691178230143_3_alg».proof.Proof.Gen.Kernel.Skeleton
import proofs.«430021_j35691178230143_3_alg».proof.Proof.Gen.Kernel.Launch
import proofs.«430021_j35691178230143_3_alg».proof.Proof.Gen.Kernel.Points
import proofs.«430021_j35691178230143_3_alg».proof.Proof.Gen.Kernel.Frame
import proofs.«430021_j35691178230143_3_alg».proof.Proof.Gen.KernelIdeal
import proofs.«430021_j35691178230143_3_alg».proof.Proof.Gen.KernelIdeal.Skeleton
import proofs.«430021_j35691178230143_3_alg».proof.Proof.Gen.KernelIdeal.Launch
import proofs.«430021_j35691178230143_3_alg».proof.Proof.Gen.KernelIdeal.Points
import proofs.«430021_j35691178230143_3_alg».proof.Proof.Gen.KernelIdeal.Frame
import proofs.«430021_j35691178230143_3_alg».proof.Proof.Gen.ReferenceIdeal
import proofs.«430021_j35691178230143_3_alg».proof.Proof.Gen.Pre_finite_inputs
import proofs.«430021_j35691178230143_3_alg».proof.Proof.Gen.KernelIdeal.Value
import proofs.«430021_j35691178230143_3_alg».proof.Proof.Gen.ReferenceIdeal.Run
import proofs.«430021_j35691178230143_3_alg».proof.Proof.Gen.ReferenceIdeal.Read
import proofs.«430021_j35691178230143_3_alg».proof.Proof.KernelValue
import proofs.«430021_j35691178230143_3_alg».proof.Proof.RefValue
import proofs.«430021_j35691178230143_3_alg».proof.Proof.PreDecode
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From arguments that agree and whose edge list holds node numbers, both programs end with the specification's
    array: the kernel's by its blocks, the reference's by its run read stage by stage. -/
theorem algebraic : Cert.algebraic_KernelIdeal_ReferenceIdeal := by
  intro m ρ m' ρ' hpre hagree
  have hin : ∀ (c : Dev Cert.KernelIdeal.nD) (i : Cert.KernelIdeal.S2x320000.Idx),
      0 ≤ (m ((c.tc : Thread Cert.KernelIdeal.nD Cert.KernelIdeal.τ).loc Cert.KernelIdeal.main_arg1) i).toInt
        ∧ (m ((c.tc : Thread Cert.KernelIdeal.nD Cert.KernelIdeal.τ).loc Cert.KernelIdeal.main_arg1) i).toInt < 10000 :=
    fun c i => Cert.Pre_finite_inputs.Decode.idx_range _ _ _ _ _ _ _ (hpre c) i
  refine ⟨fun c => Cert.KernelIdeal.OutValue.result m c, Cert.KernelIdeal.OutValue.run m ρ hin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, (hagree c).1, (hagree c).2.1, (hagree c).2.2.1, (hagree c).2.2.2.1,
    (hagree c).2.2.2.2.1, (hagree c).2.2.2.2.2.1, (hagree c).2.2.2.2.2.2]
  exact Cert.ReferenceIdeal.RefValue.result_eq _ _ _ _ _ _ _ (hin c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
